-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S2048x512 : Shape := ⟨2, ![2048, 512]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S2048x512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  main_v23

def fn {F : FTy → Type} [FloatOps F] (main_arg0 : FVec F S16777216 .f32) (main_arg1 : FVec F S16777216 .f32) (main_arg2 : FVec F S2048x512 .f32) (main_arg3 : FVec F S2048x512 .f32) (main_arg4 : FVec F S2048x512 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Kernel.lean ====
abbrev S16777216 : Shape := ⟨1, ![16777216]⟩
abbrev S2048x512 : Shape := ⟨2, ![2048, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .bf16⟩
  | .hbm, ⟨6, _⟩ => ⟨S16777216, .f32⟩
  | .local _ .vmem, ⟨0, _⟩ => ⟨S512, .f32⟩
  | .local _ .vmem, ⟨1, _⟩ => ⟨S512, .f32⟩
  | .local _ .vmem, ⟨2, _⟩ => ⟨S512, .f32⟩
  | .local _ .vmem, ⟨3, _⟩ => ⟨S512, .f32⟩
  | .local _ .vmem, ⟨4, _⟩ => ⟨S2048x512, .bf16⟩
  | .local _ .vmem, ⟨5, _⟩ => ⟨S512, .f32⟩
  | .local _ .vmem, ⟨6, _⟩ => ⟨S512, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32768], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512_S512_0 : ∀ a, (![0] : Fin 1 → Nat) a + S512.size a ≤ S512.size a
  h_S512 : 0 < S512.numel
  shapeCasts_S512_S512x1 : S512.ShapeCasts S512x1
  iota_S512x2048_d1_w32 : S512x2048.Iotas .tc 32 [1]
  broadcasts_S512x1_S512x2048 : S512x1.Broadcasts S512x2048
  shapeCasts_S512x1_S512x1 : S512x1.ShapeCasts S512x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  iota_S512x512_d1_w32 : S512x512.Iotas .tc 32 [1]
  broadcasts_S512x1_S512x512 : S512x1.Broadcasts S512x512
  reduces_S512x512_S512 : S512x512.Reduces [1] S512
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S16777216.size a
  hwx0_0 : ∀ i : grid0.Coords, EltTy.bits .f32 = 32 ∨ (Rect.block (s := S16777216) S512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S16777216.size a
  hwx0_1 : ∀ i : grid0.Coords, EltTy.bits .f32 = 32 ∨ (Rect.block (s := S16777216) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16777216.size a
  hwx0_3 : ∀ i : grid0.Coords, EltTy.bits .f32 = 32 ∨ (Rect.block (s := S16777216) S512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S2048x512 : Shape := ⟨2, ![2048, 512]⟩
abbrev S_ : Shape := ⟨0, ![]⟩
abbrev S16777216x1 : Shape := ⟨2, ![16777216, 1]⟩
abbrev S16777216x2 : Shape := ⟨2, ![16777216, 2]⟩

abbrev nBuf : Space → Nat
  | .hbm => 148
  | .vmem => 0
  | .smem => 0
  | _ => 0

abbrev hbmTy0_0 (i : Nat) : BufTy := match i % 128 with
  | 0 => ⟨S16777216, .f32⟩
  | 1 => ⟨S16777216, .f32⟩
  | 2 => ⟨S2048x512, .f32⟩
  | 3 => ⟨S2048x512, .f32⟩
  | 4 => ⟨S2048x512, .f32⟩
  | 5 => ⟨S_, .f32⟩
  | 6 => ⟨S16777216, .f32⟩
  | 7 => ⟨S16777216, .f32⟩
  | 8 => ⟨S_, .f32⟩
  | 9 => ⟨S16777216, .f32⟩
  | 10 => ⟨S16777216, .f32⟩
  | 11 => ⟨S_, .f32⟩
  | 12 => ⟨S16777216, .f32⟩
  | 13 => ⟨S16777216, .f32⟩
  | 14 => ⟨S_, .f32⟩
  | 15 => ⟨S16777216, .f32⟩
  | 16 => ⟨S16777216, .f32⟩
  | 17 => ⟨S16777216, .f32⟩
  | 18 => ⟨S16777216, .i32⟩
  | 19 => ⟨S_, .i32⟩
  | 20 => ⟨S_, .i32⟩
  | 21 => ⟨S_, .i32⟩
  | 22 => ⟨S16777216, .i32⟩
  | 23 => ⟨S16777216, .i32⟩
  | 24 => ⟨S_, .i32⟩
  | 25 => ⟨S16777216, .i32⟩
  | 26 => ⟨S16777216, .i32⟩
  | 27 => ⟨S16777216, .f32⟩
  | 28 => ⟨S16777216, .i32⟩
  | 29 => ⟨S_, .i32⟩
  | 30 => ⟨S_, .i32⟩
  | 31 => ⟨S_, .i32⟩
  | 32 => ⟨S16777216, .i32⟩
  | 33 => ⟨S16777216, .i32⟩
  | 34 => ⟨S_, .i32⟩
  | 35 => ⟨S16777216, .i32⟩
  | 36 => ⟨S16777216, .i32⟩
  | 37 => ⟨S16777216, .f32⟩
  | 38 => ⟨S16777216, .f32⟩
  | 39 => ⟨S16777216, .f32⟩
  | 40 => ⟨S16777216, .f32⟩
  | 41 => ⟨S_, .i32⟩
  | 42 => ⟨S16777216, .i32⟩
  | 43 => ⟨S16777216, .i1⟩
  | 44 => ⟨S_, .i32⟩
  | 45 => ⟨S16777216, .i32⟩
  | 46 => ⟨S16777216, .i32⟩
  | 47 => ⟨S16777216, .i32⟩
  | 48 => ⟨S_, .i32⟩
  | 49 => ⟨S16777216, .i32⟩
  | 50 => ⟨S16777216, .i1⟩
  | 51 => ⟨S_, .i32⟩
  | 52 => ⟨S16777216, .i32⟩
  | 53 => ⟨S16777216, .i32⟩
  | 54 => ⟨S16777216, .i32⟩
  | 55 => ⟨S16777216x1, .i32⟩
  | 56 => ⟨S16777216x1, .i32⟩
  | 57 => ⟨S16777216x2, .i32⟩
  | 58 => ⟨S16777216, .f32⟩
  | 59 => ⟨S_, .i32⟩
  | 60 => ⟨S16777216, .i32⟩
  | 61 => ⟨S16777216, .i32⟩
  | 62 => ⟨S_, .i32⟩
  | 63 => ⟨S16777216, .i32⟩
  | 64 => ⟨S16777216, .i1⟩
  | 65 => ⟨S_, .i32⟩
  | 66 => ⟨S16777216, .i32⟩
  | 67 => ⟨S16777216, .i32⟩
  | 68 => ⟨S16777216, .i32⟩
  | 69 => ⟨S_, .i32⟩
  | 70 => ⟨S16777216, .i32⟩
  | 71 => ⟨S16777216, .i1⟩
  | 72 => ⟨S_, .i32⟩
  | 73 => ⟨S16777216, .i32⟩
  | 74 => ⟨S16777216, .i32⟩
  | 75 => ⟨S16777216, .i32⟩
  | 76 => ⟨S16777216x1, .i32⟩
  | 77 => ⟨S16777216x1, .i32⟩
  | 78 => ⟨S16777216x2, .i32⟩
  | 79 => ⟨S16777216, .f32⟩
  | 80 => ⟨S_, .i32⟩
  | 81 => ⟨S16777216, .i32⟩
  | 82 => ⟨S16777216, .i32⟩
  | 83 => ⟨S_, .i32⟩
  | 84 => ⟨S16777216, .i32⟩
  | 85 => ⟨S16777216, .i1⟩
  | 86 => ⟨S_, .i32⟩
  | 87 => ⟨S16777216, .i32⟩
  | 88 => ⟨S16777216, .i32⟩
  | 89 => ⟨S16777216, .i32⟩
  | 90 => ⟨S_, .i32⟩
  | 91 => ⟨S16777216, .i32⟩
  | 92 => ⟨S16777216, .i1⟩
  | 93 => ⟨S_, .i32⟩
  | 94 => ⟨S16777216, .i32⟩
  | 95 => ⟨S16777216, .i32⟩
  | 96 => ⟨S16777216, .i32⟩
  | 97 => ⟨S16777216x1, .i32⟩
  | 98 => ⟨S16777216x1, .i32⟩
  | 99 => ⟨S16777216x2, .i32⟩
  | 100 => ⟨S16777216, .f32⟩
  | 101 => ⟨S_, .i32⟩
  | 102 => ⟨S16777216, .i32⟩
  | 103 => ⟨S16777216, .i32⟩
  | 104 => ⟨S_, .i32⟩
  | 105 => ⟨S16777216, .i32⟩
  | 106 => ⟨S16777216, .i32⟩
  | 107 => ⟨S_, .i32⟩
  | 108 => ⟨S16777216, .i32⟩
  | 109 => ⟨S16777216, .i1⟩
  | 110 => ⟨S_, .i32⟩
  | 111 => ⟨S16777216, .i32⟩
  | 112 => ⟨S16777216, .i32⟩
  | 113 => ⟨S16777216, .i32⟩
  | 114 => ⟨S_, .i32⟩
  | 115 => ⟨S16777216, .i32⟩
  | 116 => ⟨S16777216, .i1⟩
  | 117 => ⟨S_, .i32⟩
  | 118 => ⟨S16777216, .i32⟩
  | 119 => ⟨S16777216, .i32⟩
  | 120 => ⟨S16777216, .i32⟩
  | 121 => ⟨S16777216x1, .i32⟩
  | 122 => ⟨S16777216x1, .i32⟩
  | 123 => ⟨S16777216x2, .i32⟩
  | 124 => ⟨S16777216, .f32⟩
  | 125 => ⟨S_, .f32⟩
  | 126 => ⟨S16777216, .f32⟩
  | 127 => ⟨S16777216, .f32⟩
  | _ => ⟨S16777216, .f32⟩

abbrev hbmTy0_1 (i : Nat) : BufTy := match i % 128 with
  | 0 => ⟨S_, .f32⟩
  | 1 => ⟨S16777216, .f32⟩
  | 2 => ⟨S16777216, .f32⟩
  | 3 => ⟨S16777216, .f32⟩
  | 4 => ⟨S16777216, .f32⟩
  | 5 => ⟨S_, .f32⟩
  | 6 => ⟨S16777216, .f32⟩
  | 7 => ⟨S16777216, .f32⟩
  | 8 => ⟨S16777216, .f32⟩
  | 9 => ⟨S16777216, .f32⟩
  | 10 => ⟨S16777216, .f32⟩
  | 11 => ⟨S_, .f32⟩
  | 12 => ⟨S16777216, .f32⟩
  | 13 => ⟨S16777216, .f32⟩
  | 14 => ⟨S16777216, .f32⟩
  | 15 => ⟨S16777216, .f32⟩
  | 16 => ⟨S16777216, .f32⟩
  | 17 => ⟨S16777216, .f32⟩
  | 18 => ⟨S16777216, .f32⟩
  | 19 => ⟨S16777216, .f32⟩
  | _ => ⟨S16777216, .f32⟩

abbrev hbmTy (i : Nat) : BufTy := match i / 128 with
  | 0 => hbmTy0_0 i
  | 1 => hbmTy0_1 i
  | _ => ⟨S16777216, .f32⟩

abbrev bufTy : (tb : Table) → Fin (tcTables nBuf tb) → BufTy
  | .hbm, ⟨i, _⟩ => hbmTy i
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_c_5 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_8 : Ref sig .tc := ⟨.hbm, 48, rfl⟩
abbrev main_v23 : Ref sig .tc := ⟨.hbm, 49, rfl⟩
abbrev main_v24 : Ref sig .tc := ⟨.hbm, 50, rfl⟩
abbrev main_c_9 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_c_12 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_c_14 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_15 : Ref sig .tc := ⟨.hbm, 80, rfl⟩
abbrev main_v48 : Ref sig .tc := ⟨.hbm, 81, rfl⟩
abbrev main_v49 : Ref sig .tc := ⟨.hbm, 82, rfl⟩
abbrev main_c_16 : Ref sig .tc := ⟨.hbm, 83, rfl⟩
abbrev main_v50 : Ref sig .tc := ⟨.hbm, 84, rfl⟩
abbrev main_v51 : Ref sig .tc := ⟨.hbm, 85, rfl⟩
abbrev main_c_17 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_18 : Ref sig .tc := ⟨.hbm, 90, rfl⟩
abbrev main_v55 : Ref sig .tc := ⟨.hbm, 91, rfl⟩
abbrev main_v56 : Ref sig .tc := ⟨.hbm, 92, rfl⟩
abbrev main_c_19 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_20 : Ref sig .tc := ⟨.hbm, 101, rfl⟩
abbrev main_v64 : Ref sig .tc := ⟨.hbm, 102, rfl⟩
abbrev main_v65 : Ref sig .tc := ⟨.hbm, 103, rfl⟩
abbrev main_c_21 : Ref sig .tc := ⟨.hbm, 104, rfl⟩
abbrev main_v66 : Ref sig .tc := ⟨.hbm, 105, rfl⟩
abbrev main_v67 : Ref sig .tc := ⟨.hbm, 106, rfl⟩
abbrev main_c_22 : Ref sig .tc := ⟨.hbm, 107, rfl⟩
abbrev main_v68 : Ref sig .tc := ⟨.hbm, 108, rfl⟩
abbrev main_v69 : Ref sig .tc := ⟨.hbm, 109, rfl⟩
abbrev main_c_23 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_24 : Ref sig .tc := ⟨.hbm, 114, rfl⟩
abbrev main_v73 : Ref sig .tc := ⟨.hbm, 115, rfl⟩
abbrev main_v74 : Ref sig .tc := ⟨.hbm, 116, rfl⟩
abbrev main_c_25 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_26 : Ref sig .tc := ⟨.hbm, 125, rfl⟩
abbrev main_v82 : Ref sig .tc := ⟨.hbm, 126, rfl⟩
abbrev main_v83 : Ref sig .tc := ⟨.hbm, 127, rfl⟩
abbrev main_cst_27 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_28 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_29 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  gather_S2048x512_S16777216x2_S16777216_n_01_n_n_01_1_11_wf : GatherDims.WF S2048x512 S16777216x2 S16777216 [] [0, 1] [] [0, 1] [] 1 ![1, 1]

variable [Facts₀]

def gather_S2048x512_S16777216x2_S16777216_n_01_n_n_01_1_11 : GatherDims S2048x512 S16777216x2 S16777216 where
  offsetDims := []
  collapsedSliceDims := [0, 1]
  operandBatchingDims := []
  startIndicesBatchingDims := []
  startIndexMap := [0, 1]
  indexVectorDim := 1
  sliceSizes := ![1, 1]
  wf := gather_S2048x512_S16777216x2_S16777216_n_01_n_n_01_1_11_wf

class Facts : Prop extends Facts₀ where

variable [Facts]
-- ==== Proof.Bilinear.lean ====
/-
  Bilinear interpolation of a 2048 × 512 table on the extended reals, in the two arrangements the programs use.

  A query (r, z) has grid coordinates x = (r − 0) / 1 and y = (z − 0) / 1.  Its cell is
  i = clip (⌊x⌋ as a signed word) into [0, 2046], j = clip (⌊y⌋) into [0, 510], and its offsets inside the cell are
  wx = x − i, wy = y − j.  The interpolant is

      (1 − wx)(1 − wy)·T[i, j] + wx(1 − wy)·T[i+1, j] + (1 − wx)·wy·T[i, j+1] + wx·wy·T[i+1, j+1].

  The other arrangement never indexes the table: it multiplies the table by a weight row that is 1 − wx at column i,
  wx at column i + 1 and 0 elsewhere, and then sums the resulting row against a second weight row that is 1 − wy at
  lane j, wy at lane j + 1 and 0 elsewhere.  A sum against such a two-entry row is the two terms it keeps (no
  finiteness is needed: 0 · t = 0 on the extended reals), and the two arrangements then differ by distributing a
  product over a sum of two terms, which holds where every factor is a real number.
-/
import Idealize.ShloMosaic.PureOps.Ideal
import Idealize.ShloMosaic.PureOps.Ideal.Laws
import Idealize.ShloMosaic.Lib.ValueIdx

noncomputable section

namespace Cert.Bilinear

open Idealize.ShloMosaic Idealize.ShloMosaic.ValueIdx

/-! ## Two-entry weight rows -/

/-- A sum against a row with entries a at i, b at i' ≠ i and zero elsewhere keeps two terms. -/
theorem sum_two_entries {n : ℕ} (i i' : Fin n) (h : i ≠ i') (a b : EReal) (f : Fin n → EReal) :
    ∑ k : Fin n, (if k = i then a else if k = i' then b else 0) * f k = a * f i + b * f i' := by
  have e : ∀ k : Fin n, (if k = i then a else if k = i' then b else 0) * f k
      = (if k = i then a * f k else 0) + (if k = i' then b * f k else 0) := by
    intro k
    by_cases h1 : k = i
    · subst h1; simp [h]
    · by_cases h2 : k = i'
      · subst h2; simp [h1]
      · simp [h1, h2]
  simp only [e, Finset.sum_add_distrib, Finset.sum_ite_eq', Finset.mem_univ, if_true]

/-- The same with the weights on the right of each product. -/
theorem sum_two_entries_right {n : ℕ} (i i' : Fin n) (h : i ≠ i') (a b : EReal) (f : Fin n → EReal) :
    ∑ k : Fin n, f k * (if k = i then a else if k = i' then b else 0) = f i * a + f i' * b := by
  have := sum_two_entries i i' h a b f
  simp only [mul_comm (f _) _]
  rw [this, mul_comm a, mul_comm b]

/-! ## Words that index a row -/

/-- A column number below 2 ^ 32, as a word, is a given word exactly when it is that word's value. -/
theorem ofNat_eq_iff {n : ℕ} (hn : n ≤ 2 ^ 32) (k : Fin n) (w : BitVec 32) (hw : w.toNat < n) :
    BitVec.ofNat 32 k.val = w ↔ k = ⟨w.toNat, hw⟩ := by
  constructor
  · intro e
    apply Fin.ext
    have hk : k.val < 2 ^ 32 := lt_of_lt_of_le k.isLt hn
    have := congrArg BitVec.toNat e
    simp only [BitVec.toNat_ofNat] at this
    rw [Nat.mod_eq_of_lt hk] at this
    exact this
  · rintro rfl
    simp

/-- The next word's value is the next number, below the top. -/
theorem toNat_add_one (w : BitVec 32) (hw : w.toNat + 1 < 2 ^ 32) : (w + 1#32).toNat = w.toNat + 1 := by
  rw [BitVec.toNat_add]
  show (w.toNat + 1) % 2 ^ 32 = _
  exact Nat.mod_eq_of_lt hw

/-! ## The cell of a coordinate -/

/-- The literal 1.0 is the real number one. -/
theorem ofBits_one : Ideal.ofBits .f32 0x3F800000#32 = 1 := by
  simp [Ideal.ofBits, Ideal.ieee, -EReal.coe_mul]; norm_num

/-- The grid coordinate of a physical coordinate, as both programs spell it: (r − 0.0) / 1.0. -/
def coord (r : EReal) : EReal :=
  Ideal.div (r - Ideal.ofBits .f32 0x00000000#32) (Ideal.ofBits .f32 0x3F800000#32)

/-- On a real number it is that number. -/
theorem coord_coe (r : ℝ) : coord (r : EReal) = (r : EReal) := by
  unfold coord
  rw [Ideal.ofBits_zero_f32, ofBits_one, sub_zero, ← EReal.coe_one, Ideal.div_coe one_ne_zero]
  simp

/-- The cell a coordinate falls in: its floor as a signed 32-bit word, clipped into [0, hi]. -/
def cell (hi : BitVec 32) (x : EReal) : BitVec 32 :=
  IntOp.minsi hi (IntOp.maxsi 0#32 (Ideal.fptosi 32 (Ideal.liftRound Int.floor x)))

/-- A clipped word is at most the upper end, as a number. -/
theorem clip_le (hi v : BitVec 32) (hhi : hi.toNat < 2 ^ 31) :
    (IntOp.minsi hi (IntOp.maxsi 0#32 v)).toNat ≤ hi.toNat := by
  unfold IntOp.minsi IntOp.maxsi
  simp only [BitVec.slt, decide_eq_true_eq, BitVec.toInt_eq_toNat_cond]
  have hv := v.isLt
  have h0 : (0#32 : BitVec 32).toNat = 0 := rfl
  split_ifs <;> simp only [h0] at * <;> omega

theorem cell_le (hi : BitVec 32) (hhi : hi.toNat < 2 ^ 31) (x : EReal) : (cell hi x).toNat ≤ hi.toNat :=
  clip_le hi _ hhi

/-- The offset of a coordinate inside its cell. -/
def offset (hi : BitVec 32) (x : EReal) : EReal := x - (((cell hi x).toInt : ℝ) : EReal)

/-- The offset of a real coordinate is a real number. -/
theorem offset_coe (hi : BitVec 32) (x : ℝ) :
    offset hi (x : EReal) = ((x - ((cell hi (x : EReal)).toInt : ℝ) : ℝ) : EReal) := by
  unfold offset; rw [EReal.coe_sub]

/-! ## The two arrangements -/

abbrev Table := (⟨2, ![2048, 512]⟩ : Shape).Idx → EReal

/-- The row and the column of a query's cell, and the next ones, as indices of the table. -/
def row (x : EReal) : Fin 2048 := ⟨(cell 2046#32 x).toNat, by
  have := cell_le 2046#32 (by decide) x; have e : (2046#32 : BitVec 32).toNat = 2046 := rfl; omega⟩
def row' (x : EReal) : Fin 2048 := ⟨(cell 2046#32 x).toNat + 1, by
  have := cell_le 2046#32 (by decide) x; have e : (2046#32 : BitVec 32).toNat = 2046 := rfl; omega⟩
def col (y : EReal) : Fin 512 := ⟨(cell 510#32 y).toNat, by
  have := cell_le 510#32 (by decide) y; have e : (510#32 : BitVec 32).toNat = 510 := rfl; omega⟩
def col' (y : EReal) : Fin 512 := ⟨(cell 510#32 y).toNat + 1, by
  have := cell_le 510#32 (by decide) y; have e : (510#32 : BitVec 32).toNat = 510 := rfl; omega⟩

theorem row_ne (x : EReal) : row x ≠ row' x := fun h => by
  have := congrArg Fin.val h; simp only [row, row'] at this; omega
theorem col_ne (y : EReal) : col y ≠ col' y := fun h => by
  have := congrArg Fin.val h; simp only [col, col'] at this; omega

/-- The interpolant at a query whose grid coordinates are x, y. -/
def interp (T : Table) (x y : EReal) : EReal :=
  (1 - offset 2046#32 x) * (1 - offset 510#32 y) * T (ix2 (row x) (col y))
    + offset 2046#32 x * (1 - offset 510#32 y) * T (ix2 (row' x) (col y))
    + (1 - offset 2046#32 x) * offset 510#32 y * T (ix2 (row x) (col' y))
    + offset 2046#32 x * offset 510#32 y * T (ix2 (row' x) (col' y))

/-- The weight row over the table's rows: 1 − wx at the cell's row, wx at the next, zero elsewhere; the
    rows compared as 32-bit words. -/
def rowWeight (x : EReal) (k : Fin 2048) : EReal :=
  if BitVec.ofNat 32 k.val = cell 2046#32 x then 1 - offset 2046#32 x
  else if BitVec.ofNat 32 k.val = cell 2046#32 x + 1#32 then offset 2046#32 x else 0

/-- The weight row over the table's columns. -/
def colWeight (y : EReal) (c : Fin 512) : EReal :=
  if BitVec.ofNat 32 c.val = cell 510#32 y then 1 - offset 510#32 y
  else if BitVec.ofNat 32 c.val = cell 510#32 y + 1#32 then offset 510#32 y else 0

theorem rowWeight_eq (x : EReal) (k : Fin 2048) :
    rowWeight x k = if k = row x then 1 - offset 2046#32 x else if k = row' x then offset 2046#32 x else 0 := by
  have hle := cell_le 2046#32 (by decide) x
  have e : (2046#32 : BitVec 32).toNat = 2046 := rfl
  have hn := toNat_add_one (cell 2046#32 x) (by omega)
  have h1 : BitVec.ofNat 32 k.val = cell 2046#32 x ↔ k = row x :=
    ofNat_eq_iff (by norm_num) k (cell 2046#32 x) (by omega)
  have h2 : BitVec.ofNat 32 k.val = cell 2046#32 x + 1#32 ↔ k = row' x :=
    (ofNat_eq_iff (by norm_num) k (cell 2046#32 x + 1#32) (by omega)).trans
      ⟨fun h => h.trans (Fin.ext hn), fun h => h.trans (Fin.ext hn.symm)⟩
  exact if_congr h1 rfl (if_congr h2 rfl rfl)

theorem colWeight_eq (y : EReal) (c : Fin 512) :
    colWeight y c = if c = col y then 1 - offset 510#32 y else if c = col' y then offset 510#32 y else 0 := by
  have hle := cell_le 510#32 (by decide) y
  have e : (510#32 : BitVec 32).toNat = 510 := rfl
  have hn := toNat_add_one (cell 510#32 y) (by omega)
  have h1 : BitVec.ofNat 32 c.val = cell 510#32 y ↔ c = col y :=
    ofNat_eq_iff (by norm_num) c (cell 510#32 y) (by omega)
  have h2 : BitVec.ofNat 32 c.val = cell 510#32 y + 1#32 ↔ c = col' y :=
    (ofNat_eq_iff (by norm_num) c (cell 510#32 y + 1#32) (by omega)).trans
      ⟨fun h => h.trans (Fin.ext hn), fun h => h.trans (Fin.ext hn.symm)⟩
  exact if_congr h1 rfl (if_congr h2 rfl rfl)

/-- The weight-row arrangement: the row weights times the table, summed against the column weights. -/
def viaWeights (T : Table) (x y : EReal) : EReal :=
  ∑ c : Fin 512, (∑ k : Fin 2048, rowWeight x k * T (ix2 k c)) * colWeight y c

/-- Distributing over the two kept terms, on real numbers. -/
theorem regroup (wx wy a b c d : ℝ) :
    (((1 : EReal) - wx) * a + wx * b) * (1 - wy) + ((1 - wx) * c + wx * d) * wy
      = (1 - wx) * (1 - wy) * a + wx * (1 - wy) * b + (1 - wx) * wy * c + wx * wy * d := by
  rw [← EReal.coe_one]
  simp only [← EReal.coe_sub, ← EReal.coe_mul, ← EReal.coe_add]
  congr 1; ring

/-- THE TWO ARRANGEMENTS AGREE at real coordinates on a table of real numbers. -/
theorem viaWeights_eq_interp (T : Table) (hT : ∀ i, ∃ t : ℝ, T i = (t : EReal)) (x y : ℝ) :
    viaWeights T (x : EReal) (y : EReal) = interp T (x : EReal) (y : EReal) := by
  unfold viaWeights interp
  simp only [rowWeight_eq, colWeight_eq, sum_two_entries _ _ (row_ne _), sum_two_entries_right _ _ (col_ne _)]
  obtain ⟨a, ha⟩ := hT (ix2 (row (x : EReal)) (col (y : EReal)))
  obtain ⟨b, hb⟩ := hT (ix2 (row' (x : EReal)) (col (y : EReal)))
  obtain ⟨c, hc⟩ := hT (ix2 (row (x : EReal)) (col' (y : EReal)))
  obtain ⟨d, hd⟩ := hT (ix2 (row' (x : EReal)) (col' (y : EReal)))
  rw [ha, hb, hc, hd, offset_coe, offset_coe]
  exact regroup _ _ a b c d

end Cert.Bilinear

end
-- ==== Proof.Finite.lean ====
/-
  What the precondition says: every entry of the two coordinate arrays and of the table is a real number.

  The precondition is a conjunction of five tests, one per input array, each the conjunction over the array of
  |x| < +∞ on its entries.  On the extended reals |x| = max x (−x) is below +∞ exactly when x is neither infinity.
-/
import proofs.«418214_j25331717111922_3_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]
open Cert.Pre_finite_inputs.Facts

/-- The pattern 0x7F800000 is +∞. -/
theorem ofBits_inf : Ideal.ofBits .f32 0x7F800000#32 = ⊤ := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

/-- One test of the precondition: an array all of whose entries pass is an array of real numbers. -/
theorem all_real {s : Shape} {axes : List (Fin s.rank)} (x : FVec Ideal s .f32) (top : FVec Ideal s .f32)
    (htop : ∀ i, top i = Ideal.ofBits .f32 0x7F800000#32) (init : IVec S_ 1) (hr : s.ReducesTo axes S_)
    (e : Host.reduce IntOp.andi (cmpf .olt (Host.absf x) top) init hr h_S_ ValueIdx.ix0 = 1#1) (i : s.Idx) :
    ∃ r : ℝ, x i = (r : EReal) := by
  have hi := Host.reduce_andi_all _ _ hr h_S_ _ e i
  refine real_of_abs_lt (x i) ?_
  rw [← htop i]
  exact hi

/-- THE PRECONDITION READ: the coordinates and the table are real numbers. -/
theorem reals_of_pre (r z : FVec Ideal S16777216 .f32) (T G1 G2 : FVec Ideal S2048x512 .f32)
    (h : Cert.Pre_finite_inputs.fn (F := Ideal) r z T G1 G2 = fun _ => 1#1) :
    (∀ i, ∃ x : ℝ, r i = (x : EReal)) ∧ (∀ i, ∃ x : ℝ, z i = (x : EReal)) ∧ (∀ i, ∃ x : ℝ, T i = (x : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, hT⟩ := IntOp.andi_eq_one.1 h2
  obtain ⟨hr, hz⟩ := IntOp.andi_eq_one.1 h3
  exact ⟨all_real r _ (fun _ => rfl) _ _ hr, all_real z _ (fun _ => rfl) _ _ hz, all_real T _ (fun _ => rfl) _ _ hT⟩

end Cert.Finite

end
-- ==== Proof.LibColumn.lean ====
/-
  Column vectors read at an index, and a two-entry weight matrix built from them.

  A vector [a] viewed as a column [a, 1] reads its entry p at (p, 0); a column [a, 1] broadcast along a second axis
  to [a, b] reads, at (p, k), the column's entry p.  From these: the matrix whose row p holds (one − w p) at the
  column numbered by the word i p, w p at the column numbered by the next word, and zero elsewhere, when it is
  spelt with two selects over comparisons of a column-number iota against the broadcast words.  And the sum of
  an [a, b] matrix along its second axis, read at p: the sum of row p's entries.
-/
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Column

open Idealize.ShloMosaic Idealize.ShloMosaic.ValueIdx

variable {α : Type}

/-- An [a] array cast to [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, k), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A select on a word comparison for equality is a conditional on the equality. -/
theorem select_cmpi_eq {w : ℕ} (A B : BitVec w) (x y : α) :
    Scalar.select (IntOp.cmpi .eq A B) x y = if A = B then x else y := by
  unfold Scalar.select
  exact if_congr StableHlo.Predicate.cmpi_eq_iff rfl rfl

/-- THE WEIGHT MATRIX at (p, k): one − w p where column k is the word i p, w p where it is the next word, else zero. -/
theorem weights_apply {a b : ℕ} (i : IVec ⟨1, ![a]⟩ 32) (w : FVec Ideal ⟨1, ![a]⟩ .f32) (one zero : Ideal .f32)
    (hc : (⟨1, ![a]⟩ : Shape).ShapeCasts ⟨2, ![a, 1]⟩) (hc' : (⟨2, ![a, 1]⟩ : Shape).ShapeCasts ⟨2, ![a, 1]⟩)
    (hb : (⟨2, ![a, 1]⟩ : Shape).Broadcasts ⟨2, ![a, b]⟩) (hi : (⟨2, ![a, b]⟩ : Shape).Iotas .tc 32 [1])
    (p : Fin a) (k : Fin b) :
    select (cmpi .eq (iota .tc ⟨2, ![a, b]⟩ 32 [1] hi) (broadcastTo ⟨2, ![a, b]⟩ (shapeCast ⟨2, ![a, 1]⟩ i hc) hb))
        (broadcastTo ⟨2, ![a, b]⟩ (shapeCast ⟨2, ![a, 1]⟩
          (subf (broadcast ⟨2, ![a, 1]⟩ one) (shapeCast ⟨2, ![a, 1]⟩ w hc)) hc') hb)
        (select (cmpi .eq (iota .tc ⟨2, ![a, b]⟩ 32 [1] hi)
            (broadcastTo ⟨2, ![a, b]⟩ (addi (shapeCast ⟨2, ![a, 1]⟩ i hc) (broadcast ⟨2, ![a, 1]⟩ 1#32)) hb))
          (broadcastTo ⟨2, ![a, b]⟩ (shapeCast ⟨2, ![a, 1]⟩ (shapeCast ⟨2, ![a, 1]⟩ w hc) hc') hb)
          (broadcast ⟨2, ![a, b]⟩ zero)) (ix2 p k)
      = if BitVec.ofNat 32 k.val = i (ix1 p) then one - w (ix1 p)
        else if BitVec.ofNat 32 k.val = i (ix1 p) + 1#32 then w (ix1 p) else zero := by
  rw [select_apply, select_apply]
  show Scalar.select (IntOp.cmpi .eq (iota .tc ⟨2, ![a, b]⟩ 32 [1] hi (ix2 p k)) _) _
      (Scalar.select (IntOp.cmpi .eq (iota .tc ⟨2, ![a, b]⟩ 32 [1] hi (ix2 p k)) _) _ _) = _
  rw [select_cmpi_eq, select_cmpi_eq, iota_single_apply, broadcastTo_a1_ab_apply, broadcastTo_a1_ab_apply,
    broadcastTo_a1_ab_apply, broadcastTo_a1_ab_apply, shapeCast_self, shapeCast_self, shapeCast_a_a1_apply]
  show (if BitVec.ofNat 32 k.val = i (ix1 p) then one - shapeCast ⟨2, ![a, 1]⟩ w hc (ix2 p 0) else
      if BitVec.ofNat 32 k.val = shapeCast ⟨2, ![a, 1]⟩ i hc (ix2 p 0) + 1#32
      then shapeCast ⟨2, ![a, 1]⟩ w hc (ix2 p 0) else zero) = _
  rw [shapeCast_a_a1_apply, shapeCast_a_a1_apply]

/-- The index over p with lane c inserted on the second axis is (p, c). -/
theorem lift_lane {a b : ℕ} (h : (⟨2, ![a, b]⟩ : Shape).Reduces [1] ⟨1, ![a]⟩) (p : Fin a) (c : Fin b) :
    h.lift (ix1 p) c = ix2 p c := by
  funext ax; refine Fin.ext ?_
  show h.liftVal (ix1 p) c.val ax = (ix2 p c ax).val
  match ax with
  | ⟨0, _⟩ => simp [Shape.Reduces.liftVal]
  | ⟨1, _⟩ => simp [Shape.Reduces.liftVal]

/-- A sum along the second axis into a zero accumulator, read at p: the sum of row p. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ c : Fin b, src (ix2 p c) :=
  (Ideal.multiReduction_add_single src _ h hφ hacc (ix1 p)).trans
    (Finset.sum_congr rfl fun c _ => congrArg src (lift_lane h p c))

end Cert.Column

end
-- ==== Proof.KernelPoint.lean ====
/-
  One query of the idealized kernel: what its body stores at lane q of a block.

  The body builds, for the 512 queries of a block, a 512 × 2048 matrix of row weights (for query q: 1 − wx at the
  column numbered by its cell's row, wx at the next, zero elsewhere), multiplies it by the table, multiplies the
  512 × 512 product entry by entry with a matrix of column weights of the same make, and sums along the lanes.  At
  lane q that is the weight-row arrangement of the interpolant at the query's grid coordinates.
-/
import proofs.«418214_j25331717111922_3_alg».proof.Proof.Gen.KernelIdeal.Skeleton
import proofs.«418214_j25331717111922_3_alg».proof.Proof.Bilinear
import proofs.«418214_j25331717111922_3_alg».proof.Proof.LibColumn
import Idealize.ShloMosaic.Lib.KernelVsHost
import Idealize.ShloMosaic.Lib.StackMember

noncomputable section

namespace Cert.KernelIdeal.Point

open Idealize.ShloMosaic Idealize.ShloMosaic.ValueIdx Cert.KernelIdeal Cert.KernelIdeal.Gen Cert.Bilinear

variable [Cert.KernelIdeal.Facts]
open Cert.KernelIdeal.Facts₀ Cert.KernelIdeal.Facts

/-- The weight rows with their two literals as the programs spell them. -/
theorem rowWeight_spelt (x : EReal) (k : Fin 2048) :
    rowWeight x k = if BitVec.ofNat 32 k.val = cell 2046#32 x then Ideal.ofBits .f32 0x3F800000#32 - offset 2046#32 x
      else if BitVec.ofNat 32 k.val = cell 2046#32 x + 1#32 then offset 2046#32 x else Ideal.ofBits .f32 0x00000000#32 := by
  rw [ofBits_one, Ideal.ofBits_zero_f32]; rfl

theorem colWeight_spelt (y : EReal) (c : Fin 512) :
    colWeight y c = if BitVec.ofNat 32 c.val = cell 510#32 y then Ideal.ofBits .f32 0x3F800000#32 - offset 510#32 y
      else if BitVec.ofNat 32 c.val = cell 510#32 y + 1#32 then offset 510#32 y else Ideal.ofBits .f32 0x00000000#32 := by
  rw [ofBits_one, Ideal.ofBits_zero_f32]; rfl

/-- The row-weight matrix the body builds from a block of r coordinates, at (q, k). -/
theorem rowWeights_apply (v0 : FVec Ideal S512 .f32) (q : Fin 512) (k : Fin 2048) :
    k0_pay5 (F := Ideal) v0 (ix2 q k) = rowWeight (coord (v0 (ix1 q))) k := by
  unfold k0_pay5
  refine (Cert.Column.weights_apply (a := 512) (b := 2048) _ _ _ _ _ _ _ _ q k).trans ?_
  exact (rowWeight_spelt _ k).symm

/-- The cell's column and the offset in it that the body computes from a block of z coordinates, at q. -/
theorem col_apply (v1 : FVec Ideal S512 .f32) (q : Fin 512) :
    k0_pay3 (F := Ideal) v1 (ix1 q) = cell 510#32 (coord (v1 (ix1 q))) := rfl

theorem colOffset_apply (v1 : FVec Ideal S512 .f32) (q : Fin 512) :
    k0_pay4 (F := Ideal) v1 (ix1 q) = offset 510#32 (coord (v1 (ix1 q))) := rfl

/-- The program's matrix product is the plain one of a 512 × 2048 by a 2048 × 512 matrix. -/
theorem dot_plain : dot_S512x2048_S2048x512_S512x512_1_0_0_1_n_n = DotDims.plain 512 2048 512 := rfl

/-- The stored vector at lane q, over any column cells, offsets and row-weight matrix. -/
theorem stored_apply (v21 : IVec S512 32) (v25 : FVec Ideal S512 .f32) (A : FVec Ideal S512x2048 .bf16)
    (T : FVec Ideal S2048x512 .bf16) (q : Fin 512) :
    k0_pay1 (F := Ideal) v21 v25 A T (ix1 q)
      = ∑ c : Fin 512, (∑ k : Fin 2048, A (ix2 q k) * T (ix2 k c))
          * (if BitVec.ofNat 32 c.val = v21 (ix1 q) then Ideal.ofBits .f32 0x3F800000#32 - v25 (ix1 q)
            else if BitVec.ofNat 32 c.val = v21 (ix1 q) + 1#32 then v25 (ix1 q)
            else Ideal.ofBits .f32 0x00000000#32) := by
  unfold k0_pay1
  refine (Cert.Column.laneSum_apply (a := 512) (b := 512) _ _ _ _ q).trans (Finset.sum_congr rfl fun c _ => ?_)
  refine (mulf_apply _ _ _).trans ?_
  refine congrArg₂ (· * ·) ?_ ?_
  · have hT : shapeCast S2048x512 T Facts₀.shapeCasts_S2048x512_S2048x512 = T := shapeCast_self T _
    rw [hT, dot_plain, matmul_zero_eq_dotGeneral]
    exact StackMember.dotGeneral_plain_apply none A T q c
  · exact Cert.Column.weights_apply (a := 512) (b := 512) v21 v25 _ _ _ _ _ _ q c

/-- THE BODY AT LANE q: the weight-row arrangement of the interpolant at the query's grid coordinates. -/
theorem body_apply (v0 v1 : FVec Ideal S512 .f32) (T : FVec Ideal S2048x512 .bf16) (q : Fin 512) :
    k0_pay1 (F := Ideal) (k0_pay3 (F := Ideal) v1) (k0_pay4 (F := Ideal) v1) (k0_pay5 (F := Ideal) v0) T (ix1 q)
      = viaWeights T (coord (v0 (ix1 q))) (coord (v1 (ix1 q))) := by
  rw [stored_apply]
  unfold viaWeights
  refine Finset.sum_congr rfl fun c _ => ?_
  refine congrArg₂ (· * ·) (Finset.sum_congr rfl fun k _ => ?_) ?_
  · rw [rowWeights_apply]
  · rw [col_apply, colOffset_apply]; exact (colWeight_spelt _ c).symm

end Cert.KernelIdeal.Point

end
-- ==== Proof.KernelArray.lean ====
/-
  The idealized kernel's result array: the interpolant (in its weight-row arrangement) at every query.

  Grid point t stages entries 512·t … 512·t + 511 of the two coordinate arrays, the whole table, and writes back
  entries 512·t … 512·t + 511 of the result.  Lane q of what it writes back is the body's value at lane q of the
  staged blocks, that is the weight-row arrangement at query 512·t + q.  The 32768 blocks tile the result array (the
  block that holds entry n is block n / 512), so the array ends as one function of the arguments.  The table the
  kernel is launched on is the argument table converted to bf16 on the host, which at the ideal values is the
  argument table itself.
-/
import proofs.«418214_j25331717111922_3_alg».proof.Proof.Gen.KernelIdeal.Value
import proofs.«418214_j25331717111922_3_alg».proof.Proof.KernelPoint
import Idealize.ShloMosaic.Lib.Pipeline.Value
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.ValueIdx Cert.Bilinear
open Idealize.ShloMosaic.Pipeline (Dat)

variable (m : (ℓ : Loc nD τ sig) → Buf (Elt Ideal) ℓ) (ρ : Dev nD → PrngReg)

/-- The result as one function of the coordinate arrays and the table: query n's weight-row arrangement. -/
def lookup (r z : FVec Ideal S16777216 .f32) (T : Cert.Bilinear.Table) : FVec Ideal S16777216 .f32 :=
  fun n => viaWeights T (coord (r n)) (coord (z n))

theorem hz1 : (![0] : Fin 1 → Nat) = fun _ => 0 := funext fun a => by fin_cases a; rfl
theorem hz2 : (![0, 0] : Fin 2 → Nat) = fun _ => 0 := funext fun a => by fin_cases a <;> rfl

/-- One lane: the body's value on blocks that hold the arrays' entries at i (and the whole table) is the result at i. -/
theorem lane_eq (x0 x1 : FVec Ideal S512 .f32) (x2 : FVec Ideal S2048x512 .bf16) (r z : FVec Ideal S16777216 .f32)
    (T : Cert.Bilinear.Table) (y : S512.Idx) (i : S16777216.Idx) (h0 : x0 y = r i) (h1 : x1 y = z i) (h2 : x2 = T) :
    k0_pay1 (F := Ideal) (k0_pay3 (F := Ideal) x1) (k0_pay4 (F := Ideal) x1) (k0_pay5 (F := Ideal) x0) x2 y
      = lookup r z T i := by
  obtain ⟨q, rfl⟩ : ∃ q : Fin 512, y = ix1 q := ⟨y 0, eq_ix1 y⟩
  rw [Cert.KernelIdeal.Point.body_apply, h0, h1, h2]
  rfl

/-- The two coordinate windows move with the result's window; the table's block is the whole table. -/
theorem index_same0 (t : Fin cfg0.N) : win0_0.index t = win0_3.index t := rfl
theorem index_same1 (t : Fin cfg0.N) : win0_1.index t = win0_3.index t := rfl
theorem index_table (t : Fin cfg0.N) : win0_2.index t = ![0, 0] := rfl

/-- WHAT POINT t WRITES BACK is block t of the result function of the arrays as the region finds them. -/
theorem flushed_eq (c : Dev nD) (t : Fin cfg0.N) :
    (dats m 0 c).flushed 3 t = ((cfg0.win 3).blk t).view.read (Elt Ideal)
      (lookup (V m c main_arg0) (V m c main_arg1) (V m c main_v0)) := by
  rw [Cert.KernelIdeal.Value.flushed3]
  unfold out0_3
  rw [View.canon_unit_zero hz1]
  simp only [View.ld_unit_zero (S := S512) hz1, View.ld_unit_zero (S := S2048x512) hz2]
  funext j
  have e0 : ((cfg0.win 0).blk t).view.emb j = ((cfg0.win 3).blk t).view.emb j := by
    funext a; apply Fin.ext
    match a with
    | ⟨0, _⟩ =>
      show win0_0.index t (0 : Fin 1) * 512 + 1 * (j 0).val = win0_3.index t (0 : Fin 1) * 512 + 1 * (j 0).val
      rw [index_same0]
  have e1 : ((cfg0.win 1).blk t).view.emb j = ((cfg0.win 3).blk t).view.emb j := by
    funext a; apply Fin.ext
    match a with
    | ⟨0, _⟩ =>
      show win0_1.index t (0 : Fin 1) * 512 + 1 * (j 0).val = win0_3.index t (0 : Fin 1) * 512 + 1 * (j 0).val
      rw [index_same1]
  have e2 : iblk m c 2 t = V m c main_v0 := by
    funext y
    show V m c main_v0 (((cfg0.win 2).blk t).view.emb y) = V m c main_v0 y
    congr 1
    funext a; apply Fin.ext
    match a with
    | ⟨0, _⟩ => show win0_2.index t (0 : Fin 2) * 2048 + 1 * (y 0).val = (y 0).val; rw [index_table]; simp
    | ⟨1, _⟩ => show win0_2.index t (1 : Fin 2) * 512 + 1 * (y 1).val = (y 1).val; rw [index_table]; simp
  exact lane_eq (iblk m c 0 t) (iblk m c 1 t) (iblk m c 2 t) (V m c main_arg0) (V m c main_arg1) (V m c main_v0) j
    (((cfg0.win 3).blk t).view.emb j)
    (show V m c main_arg0 (((cfg0.win 0).blk t).view.emb j) = _ by rw [e0])
    (show V m c main_arg1 (((cfg0.win 1).blk t).view.emb j) = _ by rw [e1]) e2

/-- An index of the result is in point t's block iff it is in the block's range. -/
theorem mem_blk (t : Fin cfg0.N) (i : S16777216.Idx) :
    i ∈ ((cfg0.win 3).blk t).view.set ↔ ∀ a : Fin 1, win0_3.index t a * S512.size a ≤ (i a).val
      ∧ (i a).val < win0_3.index t a * S512.size a + S512.size a := by
  show i ∈ ((View.whole main_v1).slice (win0_3.rect t)).set ↔ _
  rw [View.set_slice_whole, Rect.mem_set_unit]
  exact Iff.rfl

/-- Every entry of the result is in some point's block: entry n in block n / 512. -/
theorem cover (i : S16777216.Idx) :
    ∃ t : Fin cfg0.N, (cfg0.win 3).flush t = true ∧ i ∈ ((cfg0.win 3).blk t).view.set := by
  have hi : (i 0).val < 16777216 := (i 0).isLt
  have ht : (i 0).val / 512 < grid0.N := lt_of_lt_of_eq (by omega : (i 0).val / 512 < 32768) N_0.symm
  refine ⟨⟨(i 0).val / 512, ht⟩, flush0_3 _, ?_⟩
  rw [mem_blk]
  intro a
  have hp := Cert.KernelIdeal.Value.idx_pt3 ⟨(i 0).val / 512, ht⟩
  match a with
  | ⟨0, _⟩ =>
    show win0_3.index ⟨(i 0).val / 512, ht⟩ (0 : Fin 1) * 512 ≤ (i 0).val
      ∧ (i 0).val < win0_3.index ⟨(i 0).val / 512, ht⟩ (0 : Fin 1) * 512 + 512
    have hp' : win0_3.index ⟨(i 0).val / 512, ht⟩ (0 : Fin 1) = (i 0).val / 512 := hp
    rw [hp']; omega

/-- The table the kernel is launched on: the host's conversion of the argument, the argument itself at the ideal values. -/
theorem launched_table (c : Dev nD) :
    (V m c main_v0 : S2048x512.Idx → EReal) = (m ((c : Thread nD τ).loc main_arg2) : S2048x512.Idx → EReal) := by
  dsimp only [V, hostOps0]
  after_results
  rfl

/-- THE RESULT ARRAY after the run: the result function of the argument arrays. -/
theorem final (c : Dev nD) : (dats m 0 c).arrAt 3 cfg0.N
    = lookup (m ((c : Thread nD τ).loc main_arg0)) (m ((c : Thread nD τ).loc main_arg1))
        (m ((c : Thread nD τ).loc main_arg2) : S2048x512.Idx → EReal) := by
  rw [(dats m 0 c).arrAt_eq_of_cover 3 _ (fun t _ => flushed_eq m c t) cover, V_main_arg0, V_main_arg1, launched_table]

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v1)
        = lookup (m ((c : Thread nD τ).loc main_arg0)) (m ((c : Thread nD τ).loc main_arg1))
            (m ((c : Thread nD τ).loc main_arg2) : S2048x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Array

end
-- ==== Proof.LibPointGather.lean ====
/-
  A gather of single entries from a matrix, read at an index.

  What table[i, j] with index vectors i, j of one length N lowers to: a gather whose start indices are an [N, 2]
  array of (row, column) pairs, both operand axes collapsed, slice sizes [1, 1], no offset and no batching axes.
  Result element n is the operand at the pair in row n of the start indices, each component read as a signed
  integer and clamped into its axis, as the gather clamps every start index.
-/
import Idealize.ShloMosaic.PureOps.ShapeOps
import Idealize.ShloMosaic.Lib.ValueIdx

noncomputable section

namespace Cert.PointGather

open Idealize.ShloMosaic Idealize.ShloMosaic.ValueIdx

variable {α : Type}

/-- Those dimension numbers for an operand [R, C], start indices [N, 2] and a result [N]. -/
abbrev pointDims (R C N : Nat)
    (wf : GatherDims.WF ⟨2, ![R, C]⟩ ⟨2, ![N, 2]⟩ ⟨1, ![N]⟩ [] [0, 1] [] [0, 1] [] 1 ![1, 1]) :
    GatherDims ⟨2, ![R, C]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

section
variable {R C N w : Nat}
  (wf : GatherDims.WF ⟨2, ![R, C]⟩ ⟨2, ![N, 2]⟩ ⟨1, ![N]⟩ [] [0, 1] [] [0, 1] [] 1 ![1, 1])
  (idx : IVec ⟨2, ![N, 2]⟩ w) (n : Fin N)

/-- The operand's row coordinate: the pair's first component, read signed and clamped into the rows. -/
theorem operandRow :
    (pointDims R C N wf).start (ix1 n) idx 0 + (pointDims R C N wf).batchCoord (ix1 n) 0
      + (pointDims R C N wf).offCoord (ix1 n) 0 = min (idx (ix2 n 0)).toInt.toNat (R - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (pointDims R C N wf).startIndexMap from List.mem_cons_self)]
  have hsi : (pointDims R C N wf).siIdx (ix1 n) ⟨List.idxOf (0 : Fin 2) (pointDims R C N wf).startIndexMap,
      List.idxOf_lt_length_iff.2 List.mem_cons_self⟩ = ix2 n 0 := by
    funext b; refine Fin.ext ?_
    match b with
    | ⟨0, _⟩ => rfl
    | ⟨1, _⟩ => rfl
  rw [hsi]
  rfl

/-- The operand's column coordinate: the pair's second component, read signed and clamped into the columns. -/
theorem operandCol :
    (pointDims R C N wf).start (ix1 n) idx 1 + (pointDims R C N wf).batchCoord (ix1 n) 1
      + (pointDims R C N wf).offCoord (ix1 n) 1 = min (idx (ix2 n 1)).toInt.toNat (C - 1) := by
  rw [GatherDims.batchCoord_eq_zero _ _ _ List.not_mem_nil,
    GatherDims.offCoord_eq_zero _ _ _ (fun h => ((GatherDims.mem_sKept _ _).mp h).1
      (List.mem_cons_of_mem _ List.mem_cons_self))]
  simp only [Nat.add_zero]
  unfold GatherDims.start
  rw [dif_pos (show (1 : Fin 2) ∈ (pointDims R C N wf).startIndexMap from
    List.mem_cons_of_mem _ List.mem_cons_self)]
  have hsi : (pointDims R C N wf).siIdx (ix1 n) ⟨List.idxOf (1 : Fin 2) (pointDims R C N wf).startIndexMap,
      List.idxOf_lt_length_iff.2 (List.mem_cons_of_mem _ List.mem_cons_self)⟩ = ix2 n 1 := by
    funext b; refine Fin.ext ?_
    match b with
    | ⟨0, _⟩ => rfl
    | ⟨1, _⟩ => rfl
  rw [hsi]
  rfl

end

/-- THE GATHER READ AT n: the operand at (idx[n, 0], idx[n, 1]), each read signed and clamped into its axis. -/
theorem pointGather_apply {R C N w : Nat} (hR : 0 < R) (hC : 0 < C)
    (wf : GatherDims.WF ⟨2, ![R, C]⟩ ⟨2, ![N, 2]⟩ ⟨1, ![N]⟩ [] [0, 1] [] [0, 1] [] 1 ![1, 1])
    (x : (⟨2, ![R, C]⟩ : Shape).Idx → α) (idx : IVec ⟨2, ![N, 2]⟩ w) (n : Fin N) :
    Host.gather (pointDims R C N wf) x idx (ix1 n)
      = x (ix2 ⟨min (idx (ix2 n 0)).toInt.toNat (R - 1), by omega⟩
              ⟨min (idx (ix2 n 1)).toInt.toNat (C - 1), by omega⟩) := by
  unfold Host.gather
  congr 1
  funext a
  refine Fin.ext ?_
  match a with
  | ⟨0, _⟩ => exact operandRow wf idx n
  | ⟨1, _⟩ => exact operandCol wf idx n

end Cert.PointGather

end
-- ==== Proof.RefPoint.lean ====
/-
  One query of the idealized reference: its result at query n is the interpolant at the query's grid coordinates.

  The reference computes the cell (i, j) and the offsets (wx, wy) of every query with whole-array operations, reads
  the four corners T[i, j], T[i+1, j], T[i, j+1], T[i+1, j+1] by four gathers of single entries, and combines them.
  Each gather's (row, column) pairs are first passed through the wrap of negative indices (an index below zero has
  the axis length added), which leaves the cell's words as they are: they lie in [0, 2047] and [0, 511].  The
  gather's clamp of every start index then changes nothing either, so each gather reads exactly its corner.
-/
import proofs.«418214_j25331717111922_3_alg».proof.Proof.ReadStages
import proofs.«418214_j25331717111922_3_alg».proof.Proof.Bilinear
import proofs.«418214_j25331717111922_3_alg».proof.Proof.LibPointGather
import Idealize.ShloMosaic.Lib.StableHlo.Predicate
import Idealize.ShloMosaic.Lib.Pipeline.Value

noncomputable section

namespace Cert.ReferenceIdeal.Point

open Idealize.ShloMosaic Idealize.ShloMosaic.ValueIdx Cert.ReferenceIdeal Cert.ReferenceIdeal.ReadStages Cert.Bilinear
open Idealize.ShloMosaic.StableHlo.Predicate (slt_iff_toNat toInt_eq_toNat_of_lt)

variable [Cert.ReferenceIdeal.Facts]
open Cert.ReferenceIdeal.Facts₀ Cert.ReferenceIdeal.Facts

/-- A word that is not negative as a signed number is left as it is by the wrap of negative indices. -/
theorem wrap_nonneg (w N : BitVec 32) (hw : w.toNat < 2 ^ 31) :
    Scalar.select (IntOp.cmpi .slt w 0#32) (IntOp.addi w N) w = w := by
  have h : ¬ IntOp.cmpi .slt w 0#32 = 1#1 := by
    rw [slt_iff_toNat hw (by decide)]
    exact Nat.not_lt_zero _
  unfold Scalar.select
  exact if_neg h

/-- The program's gather is the gather of single entries at (row, column) pairs. -/
theorem gather_point : gather_S2048x512_S16777216x2_S16777216_n_01_n_n_01_1_11
    = Cert.PointGather.pointDims 2048 512 16777216 gather_S2048x512_S16777216x2_S16777216_n_01_n_n_01_1_11_wf := rfl

/-- The joined (row, column) pairs read at (n, 0) and at (n, 1): the row word and the column word of query n. -/
theorem pairs_row (rowW colW : IVec S16777216 32) (n : Fin 16777216) :
    concatenate S16777216x2 1 [⟨S16777216x1, broadcastInDim S16777216x1 ![0] bcast_S16777216_S16777216x1_0 rowW⟩,
        ⟨S16777216x1, broadcastInDim S16777216x1 ![0] bcast_S16777216_S16777216x1_0 colW⟩]
      concatenates_S16777216x1_S16777216x1_S16777216x2_d1 (ix2 n (0 : Fin 2)) = rowW (ix1 n) :=
  (concatenate_pair_apply_left (t := S16777216x2) (s₁ := S16777216x1) (s₂ := S16777216x1) (1 : Fin 2) _ _ _ (ix2 n (0 : Fin 2)) rfl (ix2 n (0 : Fin 1))
    (fun b => match b with | ⟨0, _⟩ => rfl | ⟨1, _⟩ => rfl)).trans
  (broadcastInDim_apply _ bcast_S16777216_S16777216x1_0 rowW (ix2 n (0 : Fin 1)) (ix1 n) (fun a => match a with
    | ⟨0, _⟩ => by show n.val = if (16777216 : Nat) = 1 then 0 else n.val; rw [if_neg (by decide)]))

theorem pairs_col (rowW colW : IVec S16777216 32) (n : Fin 16777216) :
    concatenate S16777216x2 1 [⟨S16777216x1, broadcastInDim S16777216x1 ![0] bcast_S16777216_S16777216x1_0 rowW⟩,
        ⟨S16777216x1, broadcastInDim S16777216x1 ![0] bcast_S16777216_S16777216x1_0 colW⟩]
      concatenates_S16777216x1_S16777216x1_S16777216x2_d1 (ix2 n (1 : Fin 2)) = colW (ix1 n) :=
  (concatenate_pair_apply_right (t := S16777216x2) (s₁ := S16777216x1) (s₂ := S16777216x1) (1 : Fin 2) _ _ _ (ix2 n (1 : Fin 2)) rfl rfl (ix2 n (0 : Fin 1))
    (fun b hb => match b with | ⟨0, _⟩ => rfl | ⟨1, _⟩ => absurd rfl hb) rfl).trans
  (broadcastInDim_apply _ bcast_S16777216_S16777216x1_0 colW (ix2 n (0 : Fin 1)) (ix1 n) (fun a => match a with
    | ⟨0, _⟩ => by show n.val = if (16777216 : Nat) = 1 then 0 else n.val; rw [if_neg (by decide)]))

/-- A gather at pairs joined from row words and column words, read at query n whose words number row i and column j
    of the table: the table's entry (i, j). -/
theorem entry_apply (T : FVec Ideal S2048x512 .f32) (rowW colW : IVec S16777216 32) (n : Fin 16777216)
    (i : Fin 2048) (j : Fin 512) (hi : (rowW (ix1 n)).toNat = i.val) (hj : (colW (ix1 n)).toNat = j.val) :
    Host.gather gather_S2048x512_S16777216x2_S16777216_n_01_n_n_01_1_11 T
      (concatenate S16777216x2 1 [⟨S16777216x1, broadcastInDim S16777216x1 ![0] bcast_S16777216_S16777216x1_0 rowW⟩,
        ⟨S16777216x1, broadcastInDim S16777216x1 ![0] bcast_S16777216_S16777216x1_0 colW⟩]
        concatenates_S16777216x1_S16777216x1_S16777216x2_d1) (ix1 n) = T (ix2 i j) := by
  rw [gather_point]
  refine (Cert.PointGather.pointGather_apply (by norm_num) (by norm_num) _ T _ n).trans (congrArg T ?_)
  have hi' := i.isLt
  have hj' := j.isLt
  refine congrArg₂ ix2 (Fin.ext ?_) (Fin.ext ?_)
  · show min (_ : BitVec 32).toInt.toNat (2048 - 1) = i.val
    rw [pairs_row, toInt_eq_toNat_of_lt (by omega), Int.toNat_natCast, hi]; omega
  · show min (_ : BitVec 32).toInt.toNat (512 - 1) = j.val
    rw [pairs_col, toInt_eq_toNat_of_lt (by omega), Int.toNat_natCast, hj]; omega

section
variable (x0 x1 : FVec Ideal S16777216 .f32) (T : FVec Ideal S2048x512 .f32) (n : Fin 16777216)

/-- The cell and the offsets the reference computes at query n. -/
theorem rowCell_apply : val_main_v10 (F := Ideal) x0 (ix1 n) = cell 2046#32 (coord (x0 (ix1 n))) := rfl
theorem colCell_apply : val_main_v13 (F := Ideal) x1 (ix1 n) = cell 510#32 (coord (x1 (ix1 n))) := rfl
theorem rowOffset_apply : val_main_v15 (F := Ideal) x0 (ix1 n) = offset 2046#32 (coord (x0 (ix1 n))) := rfl
theorem colOffset_apply : val_main_v17 (F := Ideal) x1 (ix1 n) = offset 510#32 (coord (x1 (ix1 n))) := rfl

/-- The four pairs of index words, after the wrap of negative indices: the cell's row or the next, the cell's
    column or the next. -/
theorem rowWord : (val_main_v22 (F := Ideal) x0 (ix1 n)).toNat = (row (coord (x0 (ix1 n)))).val := by
  have h := cell_le 2046#32 (by decide) (coord (x0 (ix1 n)))
  have e : (2046#32 : BitVec 32).toNat = 2046 := rfl
  show (Scalar.select (IntOp.cmpi .slt (val_main_v10 (F := Ideal) x0 (ix1 n)) 0#32)
    (IntOp.addi (val_main_v10 (F := Ideal) x0 (ix1 n)) 2048#32) (val_main_v10 (F := Ideal) x0 (ix1 n))).toNat = _
  rw [rowCell_apply, wrap_nonneg _ _ (by omega)]; rfl

theorem colWord : (val_main_v27 (F := Ideal) x1 (ix1 n)).toNat = (col (coord (x1 (ix1 n)))).val := by
  have h := cell_le 510#32 (by decide) (coord (x1 (ix1 n)))
  have e : (510#32 : BitVec 32).toNat = 510 := rfl
  show (Scalar.select (IntOp.cmpi .slt (val_main_v13 (F := Ideal) x1 (ix1 n)) 0#32)
    (IntOp.addi (val_main_v13 (F := Ideal) x1 (ix1 n)) 512#32) (val_main_v13 (F := Ideal) x1 (ix1 n))).toNat = _
  rw [colCell_apply, wrap_nonneg _ _ (by omega)]; rfl

/-- The next row's word, wrapped, from any of the stages that spell it. -/
theorem nextRow (w : BitVec 32) (hw : w = cell 2046#32 (coord (x0 (ix1 n)))) :
    (Scalar.select (IntOp.cmpi .slt (IntOp.addi w 1#32) 0#32) (IntOp.addi (IntOp.addi w 1#32) 2048#32)
      (IntOp.addi w 1#32)).toNat = (row' (coord (x0 (ix1 n)))).val := by
  have h := cell_le 2046#32 (by decide) (coord (x0 (ix1 n)))
  have e : (2046#32 : BitVec 32).toNat = 2046 := rfl
  subst hw
  have hn := toNat_add_one (cell 2046#32 (coord (x0 (ix1 n)))) (by omega)
  rw [wrap_nonneg _ _ (by show (_ + 1#32 : BitVec 32).toNat < _; omega)]
  exact hn

theorem nextCol (w : BitVec 32) (hw : w = cell 510#32 (coord (x1 (ix1 n)))) :
    (Scalar.select (IntOp.cmpi .slt (IntOp.addi w 1#32) 0#32) (IntOp.addi (IntOp.addi w 1#32) 512#32)
      (IntOp.addi w 1#32)).toNat = (col' (coord (x1 (ix1 n)))).val := by
  have h := cell_le 510#32 (by decide) (coord (x1 (ix1 n)))
  have e : (510#32 : BitVec 32).toNat = 510 := rfl
  subst hw
  have hn := toNat_add_one (cell 510#32 (coord (x1 (ix1 n)))) (by omega)
  rw [wrap_nonneg _ _ (by show (_ + 1#32 : BitVec 32).toNat < _; omega)]
  exact hn

theorem rowWord' : (val_main_v38 (F := Ideal) x0 (ix1 n)).toNat = (row' (coord (x0 (ix1 n)))).val :=
  nextRow x0 n _ (rowCell_apply x0 n)
theorem rowWord'' : (val_main_v72 (F := Ideal) x0 (ix1 n)).toNat = (row' (coord (x0 (ix1 n)))).val :=
  nextRow x0 n _ (rowCell_apply x0 n)
theorem rowWord₂ : (val_main_v54 (F := Ideal) x0 (ix1 n)).toNat = (row (coord (x0 (ix1 n)))).val :=
  rowWord x0 n
theorem colWord₂ : (val_main_v43 (F := Ideal) x1 (ix1 n)).toNat = (col (coord (x1 (ix1 n)))).val :=
  colWord x1 n
theorem colWord' : (val_main_v59 (F := Ideal) x1 (ix1 n)).toNat = (col' (coord (x1 (ix1 n)))).val :=
  nextCol x1 n _ (colCell_apply x1 n)
theorem colWord'' : (val_main_v77 (F := Ideal) x1 (ix1 n)).toNat = (col' (coord (x1 (ix1 n)))).val :=
  nextCol x1 n _ (colCell_apply x1 n)

/-- The four corners. -/
theorem corner00 : val_main_v31 (F := Ideal) x0 x1 T (ix1 n)
    = T (ix2 (row (coord (x0 (ix1 n)))) (col (coord (x1 (ix1 n))))) :=
  entry_apply T (val_main_v22 (F := Ideal) x0) (val_main_v27 (F := Ideal) x1) n _ _ (rowWord x0 n) (colWord x1 n)
theorem corner10 : val_main_v47 (F := Ideal) x0 x1 T (ix1 n)
    = T (ix2 (row' (coord (x0 (ix1 n)))) (col (coord (x1 (ix1 n))))) :=
  entry_apply T (val_main_v38 (F := Ideal) x0) (val_main_v43 (F := Ideal) x1) n _ _ (rowWord' x0 n) (colWord₂ x1 n)
theorem corner01 : val_main_v63 (F := Ideal) x0 x1 T (ix1 n)
    = T (ix2 (row (coord (x0 (ix1 n)))) (col' (coord (x1 (ix1 n))))) :=
  entry_apply T (val_main_v54 (F := Ideal) x0) (val_main_v59 (F := Ideal) x1) n _ _ (rowWord₂ x0 n) (colWord' x1 n)
theorem corner11 : val_main_v81 (F := Ideal) x0 x1 T (ix1 n)
    = T (ix2 (row' (coord (x0 (ix1 n)))) (col' (coord (x1 (ix1 n))))) :=
  entry_apply T (val_main_v72 (F := Ideal) x0) (val_main_v77 (F := Ideal) x1) n _ _ (rowWord'' x0 n) (colWord'' x1 n)

/-- THE REFERENCE AT QUERY n: the interpolant at the query's grid coordinates. -/
theorem reference_apply : val_main_v100 (F := Ideal) x0 x1 T (ix1 n)
    = interp T (coord (x0 (ix1 n))) (coord (x1 (ix1 n))) := by
  show (Ideal.ofBits .f32 0x3F800000#32 - val_main_v15 (F := Ideal) x0 (ix1 n))
        * (Ideal.ofBits .f32 0x3F800000#32 - val_main_v17 (F := Ideal) x1 (ix1 n)) * val_main_v31 (F := Ideal) x0 x1 T (ix1 n)
      + val_main_v15 (F := Ideal) x0 (ix1 n) * (Ideal.ofBits .f32 0x3F800000#32 - val_main_v17 (F := Ideal) x1 (ix1 n))
        * val_main_v47 (F := Ideal) x0 x1 T (ix1 n)
      + (Ideal.ofBits .f32 0x3F800000#32 - val_main_v15 (F := Ideal) x0 (ix1 n)) * val_main_v17 (F := Ideal) x1 (ix1 n)
        * val_main_v63 (F := Ideal) x0 x1 T (ix1 n)
      + val_main_v15 (F := Ideal) x0 (ix1 n) * val_main_v17 (F := Ideal) x1 (ix1 n) * val_main_v81 (F := Ideal) x0 x1 T (ix1 n) = _
  rw [corner00, corner10, corner01, corner11, rowOffset_apply, colOffset_apply, ofBits_one]
  rfl

end

end Cert.ReferenceIdeal.Point

end
-- ==== Proof.RefRun.lean ====
/-
  The idealized reference's run, read stage by stage.

  The reference is a straight line of 143 host operations.  Its result as ONE term of the arguments repeats the
  cell's words once for every use (each of the four gathers wraps and pairs them again), so the run is read here in
  six stretches instead, each over the named values of the stretch before: the cells and offsets; the four corners,
  one stretch each; the weighted sum.  A stretch's result is a function of what the memory holds at the buffers it
  reads, whatever that memory is; a buffer that no operation of a stretch writes is as it was.  Joined, the stretches
  give the result buffer at the last stage value of the argument arrays, and the arguments unchanged.
-/
import proofs.«418214_j25331717111922_3_alg».proof.Proof.RunOps
import proofs.«418214_j25331717111922_3_alg».proof.Proof.ReadStages
import Idealize.ShloMosaic.Lib.Pipeline.Frame

noncomputable section

namespace Cert.ReferenceIdeal.Stages

open Cert.ReferenceIdeal Cert.ReferenceIdeal.Gen Cert.ReferenceIdeal.RunOps Cert.ReferenceIdeal.ReadStages
open Idealize.ShloMosaic Idealize.ShloMosaic.TcCoe Idealize.SL.Sem Idealize.ShloMosaic.StableHlo

variable {F : FTy → Type} [FloatOps F]

/-! ## The six stretches of the operation list -/

/-- The coordinates, the cells and the offsets: from the two coordinate arrays to x, y, i, j, wx, wy (36 operations, the two clips inlined). -/
abbrev cellsOps : List (HloOp τ sig (Elt F)) :=
  [ nullary main_cst (constant S_ .f32 0x00000000#32),
    unary main_cst main_v0 (broadcastInDim S16777216 ![] bcast_S_S16777216 : (⟨S_, .f32⟩ : BufTy).Contents (Elt F) → (⟨S16777216, .f32⟩ : BufTy).Contents (Elt F)),
    binary main_arg0 main_v0 main_v1 (subf : (⟨S16777216, .f32⟩ : BufTy).Contents (Elt F) → (⟨S16777216, .f32⟩ : BufTy).Contents (Elt F) → (⟨S16777216, .f32⟩ : BufTy).Contents (Elt F)),
    nullary main_cst_0 (constant S_ .f32 0x3F800000#32),
    unary main_cst_0 main_v2 (broadcastInDim S16777216 ![] bcast_S_S16777216 : (⟨S_, .f32⟩ : BufTy).Contents (Elt F) → (⟨S16777216, .f32⟩ : BufTy).Contents (Elt F)),
    binary main_v1 main_v2 main_v3 (Host.divf : (⟨S16777216, .f32⟩ : BufTy).Contents (Elt F) → (⟨S16777216, .f32⟩ : BufTy).Contents (Elt F) → (⟨S16777216, .f32⟩ : BufTy).Contents (Elt F)),
    nullary main_cst_1 (constant S_ .f32 0x00000000#32),
    unary main_cst_1 main_v4 (broadcastInDim S16777216 ![] bcast_S_S16777216 : (⟨S_, .f32⟩ : BufTy).Contents (Elt F) → (⟨S16777216, .f32⟩ : BufTy).Contents (Elt F)),
    binary main_arg1 main_v4 main_v5 (subf : (⟨S16777216, .f32⟩ : BufTy).Contents (Elt F) → (⟨S16777216, .f32⟩ : BufTy).Contents (Elt F) → (⟨S16777216, .f32⟩ : BufTy).Contents (Elt F)),
    nullary main_cst_2 (constant S_ .f32 0x3F800000#32),
    unary main_cst_2 main_v6 (broadcastInDim S16777216 ![] bcast_S_S16777216 : (⟨S_, .f32⟩ : BufTy).Contents (Elt F) → (⟨S16777216, .f32⟩ : BufTy).Contents (Elt F)),
    binary main_v5 main_v6 main_v7 (Host.divf : (⟨S16777216, .f32⟩ : BufTy).Contents (Elt F) → (⟨S16777216, .f32⟩ : BufTy).Contents (Elt F) → (⟨S16777216, .f32⟩ : BufTy).Contents (Elt F)),
    unary main_v3 main_v8 (Host.floor : (⟨S16777216, .f32⟩ : BufTy).Contents (Elt F) → (⟨S16777216, .f32⟩ : BufTy).Contents (Elt F)),
    unary main_v8 main_v9 (fptosi 32 : (⟨S16777216, .f32⟩ : BufTy).Contents (Elt F) → (⟨S16777216, .i32⟩ : BufTy).Contents (Elt F)),
    nullary main_c (constantI S_ 32 0#32),
    nullary main_c_3 (constantI S_ 32 2046#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16777216, .i32⟩) main_call0_v1) (broadcastInDim S16777216 ![] bcast_S_S16777216),
    TRef.binary (TRef.of (T := ⟨S16777216, .i32⟩) main_call0_v1) (TRef.of (T := ⟨S16777216, .i32⟩) main_v9) (TRef.of (T := ⟨S16777216, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S16777216, .i32⟩) main_call0_v4) (broadcastInDim S16777216 ![] bcast_S_S16777216),
    TRef.binary (TRef.of (T := ⟨S16777216, .i32⟩) main_call0_v4) (TRef.of (T := ⟨S16777216, .i32⟩) main_call0_v2) (TRef.of (T := ⟨S16777216, .i32⟩) main_v10) minsi,
    unary main_v7 main_v11 (Host.floor : (⟨S16777216, .f32⟩ : BufTy).Contents (Elt F) → (⟨S16777216, .f32⟩ : BufTy).Contents (Elt F)),
    unary main_v11 main_v12 (fptosi 32 : (⟨S16777216, .f32⟩ : BufTy).Contents (Elt F) → (⟨S16777216, .i32⟩ : BufTy).Contents (Elt F)),
    nullary main_c_4 (constantI S_ 32 0#32),
    nullary main_c_5 (constantI S_ 32 510#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S16777216, .i32⟩) main_call1_v1) (broadcastInDim S16777216 ![] bcast_S_S16777216),
    TRef.binary (TRef.of (T := ⟨S16777216, .i32⟩) main_call1_v1) (TRef.of (T := ⟨S16777216, .i32⟩) main_v12) (TRef.of (T := ⟨S16777216, .i32⟩) main_call1_v2) maxsi,
    TRef.unary (TRef.of (T := ⟨S_, .i32⟩) main_c_5) (TRef.of (T := ⟨S_, .i32⟩) main_call1_v3) id,
    TRef.unary (TRef.of (T := ⟨S_, .i32⟩) main_call1_v3) (TRef.of (T := ⟨S16777216, .i32⟩) main_call1_v4) (broadcastInDim S16777216 ![] bcast_S_S16777216),
    TRef.binary (TRef.of (T := ⟨S16777216, .i32⟩) main_call1_v4) (TRef.of (T := ⟨S16777216, .i32⟩) main_call1_v2) (TRef.of (T := ⟨S16777216, .i32⟩) main_v13) minsi,
    unary main_v10 main_v14 (sitofp .f32 : (⟨S16777216, .i32⟩ : BufTy).Contents (Elt F) → (⟨S16777216, .f32⟩ : BufTy).Contents (Elt F)),
    binary main_v3 main_v14 main_v15 (subf : (⟨S16777216, .f32⟩ : BufTy).Contents (Elt F) → (⟨S16777216, .f32⟩ : BufTy).Contents (Elt F) → (⟨S16777216, .f32⟩ : BufTy).Contents (Elt F)),
    unary main_v13 main_v16 (sitofp .f32 : (⟨S16777216, .i32⟩ : BufTy).Contents (Elt F) → (⟨S16777216, .f32⟩ : BufTy).Contents (Elt F)),
    binary main_v7 main_v16 main_v17 (subf : (⟨S16777216, .f32⟩ : BufTy).Contents (Elt F) → (⟨S16777216, .f32⟩ : BufTy).Contents (Elt F) → (⟨S16777216, .f32⟩ : BufTy).Contents (Elt F)) ]

/-- The corner T[i, j]: the wrap of negative indices on both words, the (row, column) pairs, the gather (18 operations). -/
abbrev corner00Ops : List (HloOp τ sig (Elt F)) :=
  [ nullary main_c_6 (constantI S_ 32 0#32),
    unary main_c_6 main_v18 (broadcastInDim S16777216 ![] bcast_S_S16777216 : (⟨S_, .i32⟩ : BufTy).Contents (Elt F) → (⟨S16777216, .i32⟩ : BufTy).Contents (Elt F)),
    binary main_v10 main_v18 main_v19 (cmpi .slt : (⟨S16777216, .i32⟩ : BufTy).Contents (Elt F) → (⟨S16777216, .i32⟩ : BufTy).Contents (Elt F) → (⟨S16777216, .i1⟩ : BufTy).Contents (Elt F)),
    nullary main_c_7 (constantI S_ 32 2048#32),
    unary main_c_7 main_v20 (broadcastInDim S16777216 ![] bcast_S_S16777216 : (⟨S_, .i32⟩ : BufTy).Contents (Elt F) → (⟨S16777216, .i32⟩ : BufTy).Contents (Elt F)),
    binary main_v10 main_v20 main_v21 (addi : (⟨S16777216, .i32⟩ : BufTy).Contents (Elt F) → (⟨S16777216, .i32⟩ : BufTy).Contents (Elt F) → (⟨S16777216, .i32⟩ : BufTy).Contents (Elt F)),
    ternary main_v19 main_v21 main_v10 main_v22 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    nullary main_c_8 (constantI S_ 32 0#32),
    unary main_c_8 main_v23 (broadcastInDim S16777216 ![] bcast_S_S16777216 : (⟨S_, .i32⟩ : BufTy).Contents (Elt F) → (⟨S16777216, .i32⟩ : BufTy).Contents (Elt F)),
    binary main_v13 main_v23 main_v24 (cmpi .slt : (⟨S16777216, .i32⟩ : BufTy).Contents (Elt F) → (⟨S16777216, .i32⟩ : BufTy).Contents (Elt F) → (⟨S16777216, .i1⟩ : BufTy).Contents (Elt F)),
    nullary main_c_9 (constantI S_ 32 512#32),
    unary main_c_9 main_v25 (broadcastInDim S16777216 ![] bcast_S_S16777216 : (⟨S_, .i32⟩ : BufTy).Contents (Elt F) → (⟨S16777216, .i32⟩ : BufTy).Contents (Elt F)),
    binary main_v13 main_v25 main_v26 (addi : (⟨S16777216, .i32⟩ : BufTy).Contents (Elt F) → (⟨S16777216, .i32⟩ : BufTy).Contents (Elt F) → (⟨S16777216, .i32⟩ : BufTy).Contents (Elt F)),
    ternary main_v24 main_v26 main_v13 main_v27 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v22 main_v28 (broadcastInDim S16777216x1 ![0] bcast_S16777216_S16777216x1_0 : (⟨S16777216, .i32⟩ : BufTy).Contents (Elt F) → (⟨S16777216x1, .i32⟩ : BufTy).Contents (Elt F)),
    unary main_v27 main_v29 (broadcastInDim S16777216x1 ![0] bcast_S16777216_S16777216x1_0 : (⟨S16777216, .i32⟩ : BufTy).Contents (Elt F) → (⟨S16777216x1, .i32⟩ : BufTy).Contents (Elt F)),
    binary main_v28 main_v29 main_v30 ((fun a b => concatenate S16777216x2 1 [⟨S16777216x1, a⟩, ⟨S16777216x1, b⟩] concatenates_S16777216x1_S16777216x1_S16777216x2_d1) : (⟨S16777216x1, .i32⟩ : BufTy).Contents (Elt F) → (⟨S16777216x1, .i32⟩ : BufTy).Contents (Elt F) → (⟨S16777216x2, .i32⟩ : BufTy).Contents (Elt F)),
    binary main_arg2 main_v30 main_v31 ((fun x i => Host.gather gather_S2048x512_S16777216x2_S16777216_n_01_n_n_01_1_11 x i) : (⟨S2048x512, .f32⟩ : BufTy).Contents (Elt F) → (⟨S16777216x2, .i32⟩ : BufTy).Contents (Elt F) → (⟨S16777216, .f32⟩ : BufTy).Contents (Elt F)) ]

/-- The corner T[i+1, j] (21 operations). -/
abbrev corner10Ops : List (HloOp τ sig (Elt F)) :=
  [ nullary main_c_10 (constantI S_ 32 1#32),
    unary main_c_10 main_v32 (broadcastInDim S16777216 ![] bcast_S_S16777216 : (⟨S_, .i32⟩ : BufTy).Contents (Elt F) → (⟨S16777216, .i32⟩ : BufTy).Contents (Elt F)),
    binary main_v10 main_v32 main_v33 (addi : (⟨S16777216, .i32⟩ : BufTy).Contents (Elt F) → (⟨S16777216, .i32⟩ : BufTy).Contents (Elt F) → (⟨S16777216, .i32⟩ : BufTy).Contents (Elt F)),
    nullary main_c_11 (constantI S_ 32 0#32),
    unary main_c_11 main_v34 (broadcastInDim S16777216 ![] bcast_S_S16777216 : (⟨S_, .i32⟩ : BufTy).Contents (Elt F) → (⟨S16777216, .i32⟩ : BufTy).Contents (Elt F)),
    binary main_v33 main_v34 main_v35 (cmpi .slt : (⟨S16777216, .i32⟩ : BufTy).Contents (Elt F) → (⟨S16777216, .i32⟩ : BufTy).Contents (Elt F) → (⟨S16777216, .i1⟩ : BufTy).Contents (Elt F)),
    nullary main_c_12 (constantI S_ 32 2048#32),
    unary main_c_12 main_v36 (broadcastInDim S16777216 ![] bcast_S_S16777216 : (⟨S_, .i32⟩ : BufTy).Contents (Elt F) → (⟨S16777216, .i32⟩ : BufTy).Contents (Elt F)),
    binary main_v33 main_v36 main_v37 (addi : (⟨S16777216, .i32⟩ : BufTy).Contents (Elt F) → (⟨S16777216, .i32⟩ : BufTy).Contents (Elt F) → (⟨S16777216, .i32⟩ : BufTy).Contents (Elt F)),
    ternary main_v35 main_v37 main_v33 main_v38 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    nullary main_c_13 (constantI S_ 32 0#32),
    unary main_c_13 main_v39 (broadcastInDim S16777216 ![] bcast_S_S16777216 : (⟨S_, .i32⟩ : BufTy).Contents (Elt F) → (⟨S16777216, .i32⟩ : BufTy).Contents (Elt F)),
    binary main_v13 main_v39 main_v40 (cmpi .slt : (⟨S16777216, .i32⟩ : BufTy).Contents (Elt F) → (⟨S16777216, .i32⟩ : BufTy).Contents (Elt F) → (⟨S16777216, .i1⟩ : BufTy).Contents (Elt F)),
    nullary main_c_14 (constantI S_ 32 512#32),
    unary main_c_14 main_v41 (broadcastInDim S16777216 ![] bcast_S_S16777216 : (⟨S_, .i32⟩ : BufTy).Contents (Elt F) → (⟨S16777216, .i32⟩ : BufTy).Contents (Elt F)),
    binary main_v13 main_v41 main_v42 (addi : (⟨S16777216, .i32⟩ : BufTy).Contents (Elt F) → (⟨S16777216, .i32⟩ : BufTy).Contents (Elt F) → (⟨S16777216, .i32⟩ : BufTy).Contents (Elt F)),
    ternary main_v40 main_v42 main_v13 main_v43 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v38 main_v44 (broadcastInDim S16777216x1 ![0] bcast_S16777216_S16777216x1_0 : (⟨S16777216, .i32⟩ : BufTy).Contents (Elt F) → (⟨S16777216x1, .i32⟩ : BufTy).Contents (Elt F)),
    unary main_v43 main_v45 (broadcastInDim S16777216x1 ![0] bcast_S16777216_S16777216x1_0 : (⟨S16777216, .i32⟩ : BufTy).Contents (Elt F) → (⟨S16777216x1, .i32⟩ : BufTy).Contents (Elt F)),
    binary main_v44 main_v45 main_v46 ((fun a b => concatenate S16777216x2 1 [⟨S16777216x1, a⟩, ⟨S16777216x1, b⟩] concatenates_S16777216x1_S16777216x1_S16777216x2_d1) : (⟨S16777216x1, .i32⟩ : BufTy).Contents (Elt F) → (⟨S16777216x1, .i32⟩ : BufTy).Contents (Elt F) → (⟨S16777216x2, .i32⟩ : BufTy).Contents (Elt F)),
    binary main_arg2 main_v46 main_v47 ((fun x i => Host.gather gather_S2048x512_S16777216x2_S16777216_n_01_n_n_01_1_11 x i) : (⟨S2048x512, .f32⟩ : BufTy).Contents (Elt F) → (⟨S16777216x2, .i32⟩ : BufTy).Contents (Elt F) → (⟨S16777216, .f32⟩ : BufTy).Contents (Elt F)) ]

/-- The corner T[i, j+1] (21 operations). -/
abbrev corner01Ops : List (HloOp τ sig (Elt F)) :=
  [ nullary main_c_15 (constantI S_ 32 1#32),
    unary main_c_15 main_v48 (broadcastInDim S16777216 ![] bcast_S_S16777216 : (⟨S_, .i32⟩ : BufTy).Contents (Elt F) → (⟨S16777216, .i32⟩ : BufTy).Contents (Elt F)),
    binary main_v13 main_v48 main_v49 (addi : (⟨S16777216, .i32⟩ : BufTy).Contents (Elt F) → (⟨S16777216, .i32⟩ : BufTy).Contents (Elt F) → (⟨S16777216, .i32⟩ : BufTy).Contents (Elt F)),
    nullary main_c_16 (constantI S_ 32 0#32),
    unary main_c_16 main_v50 (broadcastInDim S16777216 ![] bcast_S_S16777216 : (⟨S_, .i32⟩ : BufTy).Contents (Elt F) → (⟨S16777216, .i32⟩ : BufTy).Contents (Elt F)),
    binary main_v10 main_v50 main_v51 (cmpi .slt : (⟨S16777216, .i32⟩ : BufTy).Contents (Elt F) → (⟨S16777216, .i32⟩ : BufTy).Contents (Elt F) → (⟨S16777216, .i1⟩ : BufTy).Contents (Elt F)),
    nullary main_c_17 (constantI S_ 32 2048#32),
    unary main_c_17 main_v52 (broadcastInDim S16777216 ![] bcast_S_S16777216 : (⟨S_, .i32⟩ : BufTy).Contents (Elt F) → (⟨S16777216, .i32⟩ : BufTy).Contents (Elt F)),
    binary main_v10 main_v52 main_v53 (addi : (⟨S16777216, .i32⟩ : BufTy).Contents (Elt F) → (⟨S16777216, .i32⟩ : BufTy).Contents (Elt F) → (⟨S16777216, .i32⟩ : BufTy).Contents (Elt F)),
    ternary main_v51 main_v53 main_v10 main_v54 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    nullary main_c_18 (constantI S_ 32 0#32),
    unary main_c_18 main_v55 (broadcastInDim S16777216 ![] bcast_S_S16777216 : (⟨S_, .i32⟩ : BufTy).Contents (Elt F) → (⟨S16777216, .i32⟩ : BufTy).Contents (Elt F)),
    binary main_v49 main_v55 main_v56 (cmpi .slt : (⟨S16777216, .i32⟩ : BufTy).Contents (Elt F) → (⟨S16777216, .i32⟩ : BufTy).Contents (Elt F) → (⟨S16777216, .i1⟩ : BufTy).Contents (Elt F)),
    nullary main_c_19 (constantI S_ 32 512#32),
    unary main_c_19 main_v57 (broadcastInDim S16777216 ![] bcast_S_S16777216 : (⟨S_, .i32⟩ : BufTy).Contents (Elt F) → (⟨S16777216, .i32⟩ : BufTy).Contents (Elt F)),
    binary main_v49 main_v57 main_v58 (addi : (⟨S16777216, .i32⟩ : BufTy).Contents (Elt F) → (⟨S16777216, .i32⟩ : BufTy).Contents (Elt F) → (⟨S16777216, .i32⟩ : BufTy).Contents (Elt F)),
    ternary main_v56 main_v58 main_v49 main_v59 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v54 main_v60 (broadcastInDim S16777216x1 ![0] bcast_S16777216_S16777216x1_0 : (⟨S16777216, .i32⟩ : BufTy).Contents (Elt F) → (⟨S16777216x1, .i32⟩ : BufTy).Contents (Elt F)),
    unary main_v59 main_v61 (broadcastInDim S16777216x1 ![0] bcast_S16777216_S16777216x1_0 : (⟨S16777216, .i32⟩ : BufTy).Contents (Elt F) → (⟨S16777216x1, .i32⟩ : BufTy).Contents (Elt F)),
    binary main_v60 main_v61 main_v62 ((fun a b => concatenate S16777216x2 1 [⟨S16777216x1, a⟩, ⟨S16777216x1, b⟩] concatenates_S16777216x1_S16777216x1_S16777216x2_d1) : (⟨S16777216x1, .i32⟩ : BufTy).Contents (Elt F) → (⟨S16777216x1, .i32⟩ : BufTy).Contents (Elt F) → (⟨S16777216x2, .i32⟩ : BufTy).Contents (Elt F)),
    binary main_arg2 main_v62 main_v63 ((fun x i => Host.gather gather_S2048x512_S16777216x2_S16777216_n_01_n_n_01_1_11 x i) : (⟨S2048x512, .f32⟩ : BufTy).Contents (Elt F) → (⟨S16777216x2, .i32⟩ : BufTy).Contents (Elt F) → (⟨S16777216, .f32⟩ : BufTy).Contents (Elt F)) ]

/-- The corner T[i+1, j+1] (24 operations). -/
abbrev corner11Ops : List (HloOp τ sig (Elt F)) :=
  [ nullary main_c_20 (constantI S_ 32 1#32),
    unary main_c_20 main_v64 (broadcastInDim S16777216 ![] bcast_S_S16777216 : (⟨S_, .i32⟩ : BufTy).Contents (Elt F) → (⟨S16777216, .i32⟩ : BufTy).Contents (Elt F)),
    binary main_v10 main_v64 main_v65 (addi : (⟨S16777216, .i32⟩ : BufTy).Contents (Elt F) → (⟨S16777216, .i32⟩ : BufTy).Contents (Elt F) → (⟨S16777216, .i32⟩ : BufTy).Contents (Elt F)),
    nullary main_c_21 (constantI S_ 32 1#32),
    unary main_c_21 main_v66 (broadcastInDim S16777216 ![] bcast_S_S16777216 : (⟨S_, .i32⟩ : BufTy).Contents (Elt F) → (⟨S16777216, .i32⟩ : BufTy).Contents (Elt F)),
    binary main_v13 main_v66 main_v67 (addi : (⟨S16777216, .i32⟩ : BufTy).Contents (Elt F) → (⟨S16777216, .i32⟩ : BufTy).Contents (Elt F) → (⟨S16777216, .i32⟩ : BufTy).Contents (Elt F)),
    nullary main_c_22 (constantI S_ 32 0#32),
    unary main_c_22 main_v68 (broadcastInDim S16777216 ![] bcast_S_S16777216 : (⟨S_, .i32⟩ : BufTy).Contents (Elt F) → (⟨S16777216, .i32⟩ : BufTy).Contents (Elt F)),
    binary main_v65 main_v68 main_v69 (cmpi .slt : (⟨S16777216, .i32⟩ : BufTy).Contents (Elt F) → (⟨S16777216, .i32⟩ : BufTy).Contents (Elt F) → (⟨S16777216, .i1⟩ : BufTy).Contents (Elt F)),
    nullary main_c_23 (constantI S_ 32 2048#32),
    unary main_c_23 main_v70 (broadcastInDim S16777216 ![] bcast_S_S16777216 : (⟨S_, .i32⟩ : BufTy).Contents (Elt F) → (⟨S16777216, .i32⟩ : BufTy).Contents (Elt F)),
    binary main_v65 main_v70 main_v71 (addi : (⟨S16777216, .i32⟩ : BufTy).Contents (Elt F) → (⟨S16777216, .i32⟩ : BufTy).Contents (Elt F) → (⟨S16777216, .i32⟩ : BufTy).Contents (Elt F)),
    ternary main_v69 main_v71 main_v65 main_v72 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    nullary main_c_24 (constantI S_ 32 0#32),
    unary main_c_24 main_v73 (broadcastInDim S16777216 ![] bcast_S_S16777216 : (⟨S_, .i32⟩ : BufTy).Contents (Elt F) → (⟨S16777216, .i32⟩ : BufTy).Contents (Elt F)),
    binary main_v67 main_v73 main_v74 (cmpi .slt : (⟨S16777216, .i32⟩ : BufTy).Contents (Elt F) → (⟨S16777216, .i32⟩ : BufTy).Contents (Elt F) → (⟨S16777216, .i1⟩ : BufTy).Contents (Elt F)),
    nullary main_c_25 (constantI S_ 32 512#32),
    unary main_c_25 main_v75 (broadcastInDim S16777216 ![] bcast_S_S16777216 : (⟨S_, .i32⟩ : BufTy).Contents (Elt F) → (⟨S16777216, .i32⟩ : BufTy).Contents (Elt F)),
    binary main_v67 main_v75 main_v76 (addi : (⟨S16777216, .i32⟩ : BufTy).Contents (Elt F) → (⟨S16777216, .i32⟩ : BufTy).Contents (Elt F) → (⟨S16777216, .i32⟩ : BufTy).Contents (Elt F)),
    ternary main_v74 main_v76 main_v67 main_v77 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v72 main_v78 (broadcastInDim S16777216x1 ![0] bcast_S16777216_S16777216x1_0 : (⟨S16777216, .i32⟩ : BufTy).Contents (Elt F) → (⟨S16777216x1, .i32⟩ : BufTy).Contents (Elt F)),
    unary main_v77 main_v79 (broadcastInDim S16777216x1 ![0] bcast_S16777216_S16777216x1_0 : (⟨S16777216, .i32⟩ : BufTy).Contents (Elt F) → (⟨S16777216x1, .i32⟩ : BufTy).Contents (Elt F)),
    binary main_v78 main_v79 main_v80 ((fun a b => concatenate S16777216x2 1 [⟨S16777216x1, a⟩, ⟨S16777216x1, b⟩] concatenates_S16777216x1_S16777216x1_S16777216x2_d1) : (⟨S16777216x1, .i32⟩ : BufTy).Contents (Elt F) → (⟨S16777216x1, .i32⟩ : BufTy).Contents (Elt F) → (⟨S16777216x2, .i32⟩ : BufTy).Contents (Elt F)),
    binary main_arg2 main_v80 main_v81 ((fun x i => Host.gather gather_S2048x512_S16777216x2_S16777216_n_01_n_n_01_1_11 x i) : (⟨S2048x512, .f32⟩ : BufTy).Contents (Elt F) → (⟨S16777216x2, .i32⟩ : BufTy).Contents (Elt F) → (⟨S16777216, .f32⟩ : BufTy).Contents (Elt F)) ]

/-- The four weights and the weighted sum of the corners (23 operations). -/
abbrev mixOps : List (HloOp τ sig (Elt F)) :=
  [ nullary main_cst_26 (constant S_ .f32 0x3F800000#32),
    unary main_cst_26 main_v82 (broadcastInDim S16777216 ![] bcast_S_S16777216 : (⟨S_, .f32⟩ : BufTy).Contents (Elt F) → (⟨S16777216, .f32⟩ : BufTy).Contents (Elt F)),
    binary main_v82 main_v15 main_v83 (subf : (⟨S16777216, .f32⟩ : BufTy).Contents (Elt F) → (⟨S16777216, .f32⟩ : BufTy).Contents (Elt F) → (⟨S16777216, .f32⟩ : BufTy).Contents (Elt F)),
    nullary main_cst_27 (constant S_ .f32 0x3F800000#32),
    unary main_cst_27 main_v84 (broadcastInDim S16777216 ![] bcast_S_S16777216 : (⟨S_, .f32⟩ : BufTy).Contents (Elt F) → (⟨S16777216, .f32⟩ : BufTy).Contents (Elt F)),
    binary main_v84 main_v17 main_v85 (subf : (⟨S16777216, .f32⟩ : BufTy).Contents (Elt F) → (⟨S16777216, .f32⟩ : BufTy).Contents (Elt F) → (⟨S16777216, .f32⟩ : BufTy).Contents (Elt F)),
    binary main_v83 main_v85 main_v86 (mulf : (⟨S16777216, .f32⟩ : BufTy).Contents (Elt F) → (⟨S16777216, .f32⟩ : BufTy).Contents (Elt F) → (⟨S16777216, .f32⟩ : BufTy).Contents (Elt F)),
    binary main_v86 main_v31 main_v87 (mulf : (⟨S16777216, .f32⟩ : BufTy).Contents (Elt F) → (⟨S16777216, .f32⟩ : BufTy).Contents (Elt F) → (⟨S16777216, .f32⟩ : BufTy).Contents (Elt F)),
    nullary main_cst_28 (constant S_ .f32 0x3F800000#32),
    unary main_cst_28 main_v88 (broadcastInDim S16777216 ![] bcast_S_S16777216 : (⟨S_, .f32⟩ : BufTy).Contents (Elt F) → (⟨S16777216, .f32⟩ : BufTy).Contents (Elt F)),
    binary main_v88 main_v17 main_v89 (subf : (⟨S16777216, .f32⟩ : BufTy).Contents (Elt F) → (⟨S16777216, .f32⟩ : BufTy).Contents (Elt F) → (⟨S16777216, .f32⟩ : BufTy).Contents (Elt F)),
    binary main_v15 main_v89 main_v90 (mulf : (⟨S16777216, .f32⟩ : BufTy).Contents (Elt F) → (⟨S16777216, .f32⟩ : BufTy).Contents (Elt F) → (⟨S16777216, .f32⟩ : BufTy).Contents (Elt F)),
    binary main_v90 main_v47 main_v91 (mulf : (⟨S16777216, .f32⟩ : BufTy).Contents (Elt F) → (⟨S16777216, .f32⟩ : BufTy).Contents (Elt F) → (⟨S16777216, .f32⟩ : BufTy).Contents (Elt F)),
    binary main_v87 main_v91 main_v92 (addf : (⟨S16777216, .f32⟩ : BufTy).Contents (Elt F) → (⟨S16777216, .f32⟩ : BufTy).Contents (Elt F) → (⟨S16777216, .f32⟩ : BufTy).Contents (Elt F)),
    nullary main_cst_29 (constant S_ .f32 0x3F800000#32),
    unary main_cst_29 main_v93 (broadcastInDim S16777216 ![] bcast_S_S16777216 : (⟨S_, .f32⟩ : BufTy).Contents (Elt F) → (⟨S16777216, .f32⟩ : BufTy).Contents (Elt F)),
    binary main_v93 main_v15 main_v94 (subf : (⟨S16777216, .f32⟩ : BufTy).Contents (Elt F) → (⟨S16777216, .f32⟩ : BufTy).Contents (Elt F) → (⟨S16777216, .f32⟩ : BufTy).Contents (Elt F)),
    binary main_v94 main_v17 main_v95 (mulf : (⟨S16777216, .f32⟩ : BufTy).Contents (Elt F) → (⟨S16777216, .f32⟩ : BufTy).Contents (Elt F) → (⟨S16777216, .f32⟩ : BufTy).Contents (Elt F)),
    binary main_v95 main_v63 main_v96 (mulf : (⟨S16777216, .f32⟩ : BufTy).Contents (Elt F) → (⟨S16777216, .f32⟩ : BufTy).Contents (Elt F) → (⟨S16777216, .f32⟩ : BufTy).Contents (Elt F)),
    binary main_v92 main_v96 main_v97 (addf : (⟨S16777216, .f32⟩ : BufTy).Contents (Elt F) → (⟨S16777216, .f32⟩ : BufTy).Contents (Elt F) → (⟨S16777216, .f32⟩ : BufTy).Contents (Elt F)),
    binary main_v15 main_v17 main_v98 (mulf : (⟨S16777216, .f32⟩ : BufTy).Contents (Elt F) → (⟨S16777216, .f32⟩ : BufTy).Contents (Elt F) → (⟨S16777216, .f32⟩ : BufTy).Contents (Elt F)),
    binary main_v98 main_v81 main_v99 (mulf : (⟨S16777216, .f32⟩ : BufTy).Contents (Elt F) → (⟨S16777216, .f32⟩ : BufTy).Contents (Elt F) → (⟨S16777216, .f32⟩ : BufTy).Contents (Elt F)),
    binary main_v97 main_v99 main_v100 (addf : (⟨S16777216, .f32⟩ : BufTy).Contents (Elt F) → (⟨S16777216, .f32⟩ : BufTy).Contents (Elt F) → (⟨S16777216, .f32⟩ : BufTy).Contents (Elt F)) ]

/-- The operation list is the six stretches in order. -/
theorem ops_stages : (ops : List (HloOp τ sig (Elt F)))
    = cellsOps ++ (corner00Ops ++ (corner10Ops ++ (corner01Ops ++ (corner11Ops ++ mixOps)))) := rfl

/-- A buffer none of a stretch's operations writes is as it was: each operation writes one buffer, another one. -/
local macro "kept" : tactic => `(tactic| (
  refine after_of_forall_not_mem _ _ (List.forall_iff_forall_mem.mp ?_)
  simp only [List.Forall, nullary_writes, unary_writes, binary_writes, ternary_writes, Finset.mem_singleton]
  repeat' apply And.intro
  all_goals exact devRef_ne_of_ne (by decide)))

variable (W : Valuation τ sig (Elt F))

/-! ## The cells and the offsets -/

set_option maxHeartbeats 4000000 in
theorem cells_row : after cellsOps W (Proc.devRef .tc main_v10) = val_main_v10 (F := F) (W (Proc.devRef .tc main_arg0)) := by
  dsimp only [cellsOps]; after_results; rfl
set_option maxHeartbeats 4000000 in
theorem cells_col : after cellsOps W (Proc.devRef .tc main_v13) = val_main_v13 (F := F) (W (Proc.devRef .tc main_arg1)) := by
  dsimp only [cellsOps]; after_results; rfl
set_option maxHeartbeats 4000000 in
theorem cells_rowOffset : after cellsOps W (Proc.devRef .tc main_v15) = val_main_v15 (F := F) (W (Proc.devRef .tc main_arg0)) := by
  dsimp only [cellsOps]; after_results; rfl
set_option maxHeartbeats 4000000 in
theorem cells_colOffset : after cellsOps W (Proc.devRef .tc main_v17) = val_main_v17 (F := F) (W (Proc.devRef .tc main_arg1)) := by
  dsimp only [cellsOps]; after_results; rfl
theorem cells_table : after cellsOps W (Proc.devRef .tc main_arg2) = W (Proc.devRef .tc main_arg2) := by
  dsimp only [cellsOps]; kept

/-! ## The four corners -/

section Corners
variable (x0 x1 : (⟨S16777216, .f32⟩ : BufTy).Contents (Elt F)) (x2 : (⟨S2048x512, .f32⟩ : BufTy).Contents (Elt F))
  (h10 : W (Proc.devRef .tc main_v10) = val_main_v10 (F := F) x0) (h13 : W (Proc.devRef .tc main_v13) = val_main_v13 (F := F) x1)
  (h2 : W (Proc.devRef .tc main_arg2) = x2)
include h10 h13 h2

set_option maxHeartbeats 4000000 in
theorem corner00 : after corner00Ops W (Proc.devRef .tc main_v31) = val_main_v31 (F := F) x0 x1 x2 := by
  dsimp only [corner00Ops]; after_results; rw [h10, h13, h2]; rfl
set_option maxHeartbeats 4000000 in
theorem corner10 : after corner10Ops W (Proc.devRef .tc main_v47) = val_main_v47 (F := F) x0 x1 x2 := by
  dsimp only [corner10Ops]; after_results; rw [h10, h13, h2]; rfl
set_option maxHeartbeats 4000000 in
theorem corner01 : after corner01Ops W (Proc.devRef .tc main_v63) = val_main_v63 (F := F) x0 x1 x2 := by
  dsimp only [corner01Ops]; after_results; rw [h10, h13, h2]; rfl
set_option maxHeartbeats 4000000 in
theorem corner11 : after corner11Ops W (Proc.devRef .tc main_v81) = val_main_v81 (F := F) x0 x1 x2 := by
  dsimp only [corner11Ops]; after_results; rw [h10, h13, h2]; rfl

end Corners

/-- What each corner's stretch leaves alone, of the buffers a later stretch reads. -/
theorem corner00_row : after corner00Ops W (Proc.devRef .tc main_v10) = W (Proc.devRef .tc main_v10) := by dsimp only [corner00Ops]; kept
theorem corner00_col : after corner00Ops W (Proc.devRef .tc main_v13) = W (Proc.devRef .tc main_v13) := by dsimp only [corner00Ops]; kept
theorem corner00_rowOffset : after corner00Ops W (Proc.devRef .tc main_v15) = W (Proc.devRef .tc main_v15) := by dsimp only [corner00Ops]; kept
theorem corner00_colOffset : after corner00Ops W (Proc.devRef .tc main_v17) = W (Proc.devRef .tc main_v17) := by dsimp only [corner00Ops]; kept
theorem corner00_table : after corner00Ops W (Proc.devRef .tc main_arg2) = W (Proc.devRef .tc main_arg2) := by dsimp only [corner00Ops]; kept

theorem corner10_row : after corner10Ops W (Proc.devRef .tc main_v10) = W (Proc.devRef .tc main_v10) := by dsimp only [corner10Ops]; kept
theorem corner10_col : after corner10Ops W (Proc.devRef .tc main_v13) = W (Proc.devRef .tc main_v13) := by dsimp only [corner10Ops]; kept
theorem corner10_rowOffset : after corner10Ops W (Proc.devRef .tc main_v15) = W (Proc.devRef .tc main_v15) := by dsimp only [corner10Ops]; kept
theorem corner10_colOffset : after corner10Ops W (Proc.devRef .tc main_v17) = W (Proc.devRef .tc main_v17) := by dsimp only [corner10Ops]; kept
theorem corner10_table : after corner10Ops W (Proc.devRef .tc main_arg2) = W (Proc.devRef .tc main_arg2) := by dsimp only [corner10Ops]; kept
theorem corner10_c00 : after corner10Ops W (Proc.devRef .tc main_v31) = W (Proc.devRef .tc main_v31) := by dsimp only [corner10Ops]; kept

theorem corner01_row : after corner01Ops W (Proc.devRef .tc main_v10) = W (Proc.devRef .tc main_v10) := by dsimp only [corner01Ops]; kept
theorem corner01_col : after corner01Ops W (Proc.devRef .tc main_v13) = W (Proc.devRef .tc main_v13) := by dsimp only [corner01Ops]; kept
theorem corner01_rowOffset : after corner01Ops W (Proc.devRef .tc main_v15) = W (Proc.devRef .tc main_v15) := by dsimp only [corner01Ops]; kept
theorem corner01_colOffset : after corner01Ops W (Proc.devRef .tc main_v17) = W (Proc.devRef .tc main_v17) := by dsimp only [corner01Ops]; kept
theorem corner01_table : after corner01Ops W (Proc.devRef .tc main_arg2) = W (Proc.devRef .tc main_arg2) := by dsimp only [corner01Ops]; kept
theorem corner01_c00 : after corner01Ops W (Proc.devRef .tc main_v31) = W (Proc.devRef .tc main_v31) := by dsimp only [corner01Ops]; kept
theorem corner01_c10 : after corner01Ops W (Proc.devRef .tc main_v47) = W (Proc.devRef .tc main_v47) := by dsimp only [corner01Ops]; kept

theorem corner11_rowOffset : after corner11Ops W (Proc.devRef .tc main_v15) = W (Proc.devRef .tc main_v15) := by dsimp only [corner11Ops]; kept
theorem corner11_colOffset : after corner11Ops W (Proc.devRef .tc main_v17) = W (Proc.devRef .tc main_v17) := by dsimp only [corner11Ops]; kept
theorem corner11_c00 : after corner11Ops W (Proc.devRef .tc main_v31) = W (Proc.devRef .tc main_v31) := by dsimp only [corner11Ops]; kept
theorem corner11_c10 : after corner11Ops W (Proc.devRef .tc main_v47) = W (Proc.devRef .tc main_v47) := by dsimp only [corner11Ops]; kept
theorem corner11_c01 : after corner11Ops W (Proc.devRef .tc main_v63) = W (Proc.devRef .tc main_v63) := by dsimp only [corner11Ops]; kept

/-! ## The weighted sum -/

set_option maxHeartbeats 4000000 in
theorem mix (x0 x1 : (⟨S16777216, .f32⟩ : BufTy).Contents (Elt F)) (x2 : (⟨S2048x512, .f32⟩ : BufTy).Contents (Elt F))
    (h15 : W (Proc.devRef .tc main_v15) = val_main_v15 (F := F) x0) (h17 : W (Proc.devRef .tc main_v17) = val_main_v17 (F := F) x1)
    (h31 : W (Proc.devRef .tc main_v31) = val_main_v31 (F := F) x0 x1 x2) (h47 : W (Proc.devRef .tc main_v47) = val_main_v47 (F := F) x0 x1 x2)
    (h63 : W (Proc.devRef .tc main_v63) = val_main_v63 (F := F) x0 x1 x2) (h81 : W (Proc.devRef .tc main_v81) = val_main_v81 (F := F) x0 x1 x2) :
    after mixOps W (Proc.devRef .tc main_v100) = val_main_v100 (F := F) x0 x1 x2 := by
  dsimp only [mixOps]; after_results; rw [h15, h17, h31, h47, h63, h81]; rfl

/-! ## The whole line -/

/-- THE RESULT BUFFER after the 143 operations: the last stage value of the three arrays the reference reads. -/
theorem result_eq (V : Valuation τ sig (Elt F)) :
    after (ops (F := F)) V (Proc.devRef .tc main_v100)
      = val_main_v100 (F := F) (V (Proc.devRef .tc main_arg0)) (V (Proc.devRef .tc main_arg1)) (V (Proc.devRef .tc main_arg2)) := by
  rw [ops_stages, after_append, after_append, after_append, after_append, after_append]
  -- after the cells
  have a10 := cells_row V
  have a13 := cells_col V
  have a15 := cells_rowOffset V
  have a17 := cells_colOffset V
  have a2 := cells_table V
  generalize after cellsOps V = V1 at a10 a13 a15 a17 a2 ⊢
  -- after the first corner
  have b31 := corner00 V1 _ _ _ a10 a13 a2
  have b10 := (corner00_row V1).trans a10
  have b13 := (corner00_col V1).trans a13
  have b15 := (corner00_rowOffset V1).trans a15
  have b17 := (corner00_colOffset V1).trans a17
  have b2 := (corner00_table V1).trans a2
  generalize after corner00Ops V1 = V2 at b31 b10 b13 b15 b17 b2 ⊢
  -- after the second
  have c47 := corner10 V2 _ _ _ b10 b13 b2
  have c31 := (corner10_c00 V2).trans b31
  have c10 := (corner10_row V2).trans b10
  have c13 := (corner10_col V2).trans b13
  have c15 := (corner10_rowOffset V2).trans b15
  have c17 := (corner10_colOffset V2).trans b17
  have c2 := (corner10_table V2).trans b2
  generalize after corner10Ops V2 = V3 at c47 c31 c10 c13 c15 c17 c2 ⊢
  -- after the third
  have d63 := corner01 V3 _ _ _ c10 c13 c2
  have d31 := (corner01_c00 V3).trans c31
  have d47 := (corner01_c10 V3).trans c47
  have d10 := (corner01_row V3).trans c10
  have d13 := (corner01_col V3).trans c13
  have d15 := (corner01_rowOffset V3).trans c15
  have d17 := (corner01_colOffset V3).trans c17
  have d2 := (corner01_table V3).trans c2
  generalize after corner01Ops V3 = V4 at d63 d31 d47 d10 d13 d15 d17 d2 ⊢
  -- after the fourth
  have e81 := corner11 V4 _ _ _ d10 d13 d2
  have e31 := (corner11_c00 V4).trans d31
  have e47 := (corner11_c10 V4).trans d47
  have e63 := (corner11_c01 V4).trans d63
  have e15 := (corner11_rowOffset V4).trans d15
  have e17 := (corner11_colOffset V4).trans d17
  generalize after corner11Ops V4 = V5 at e81 e31 e47 e63 e15 e17 ⊢
  exact mix V5 _ _ _ e15 e17 e31 e47 e63 e81

set_option maxHeartbeats 2000000 in
/-- No operation writes an argument array. -/
theorem kept_arg0 (V : Valuation τ sig (Elt F)) : after (ops (F := F)) V (Proc.devRef .tc main_arg0) = V (Proc.devRef .tc main_arg0) := by
  dsimp only [ops]; kept
set_option maxHeartbeats 2000000 in
theorem kept_arg1 (V : Valuation τ sig (Elt F)) : after (ops (F := F)) V (Proc.devRef .tc main_arg1) = V (Proc.devRef .tc main_arg1) := by
  dsimp only [ops]; kept
set_option maxHeartbeats 2000000 in
theorem kept_arg2 (V : Valuation τ sig (Elt F)) : after (ops (F := F)) V (Proc.devRef .tc main_arg2) = V (Proc.devRef .tc main_arg2) := by
  dsimp only [ops]; kept
set_option maxHeartbeats 2000000 in
theorem kept_arg3 (V : Valuation τ sig (Elt F)) : after (ops (F := F)) V (Proc.devRef .tc main_arg3) = V (Proc.devRef .tc main_arg3) := by
  dsimp only [ops]; kept
set_option maxHeartbeats 2000000 in
theorem kept_arg4 (V : Valuation τ sig (Elt F)) : after (ops (F := F)) V (Proc.devRef .tc main_arg4) = V (Proc.devRef .tc main_arg4) := by
  dsimp only [ops]; kept

/-- THE RUN: every weakly fair execution of the reference terminates with the result buffer at the last stage value
    of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = val_main_v100 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v100).trans (result_eq _),
      (h c main_arg0).trans (kept_arg0 _), (h c main_arg1).trans (kept_arg1 _), (h c main_arg2).trans (kept_arg2 _),
      (h c main_arg3).trans (kept_arg3 _), (h c main_arg4).trans (kept_arg4 _)⟩)
    (run_seq scopedRefs_eq scopedSems_eq defs main (fun _ => ops) main_eq (fun _ => ops_sub) m ρ)

end Cert.ReferenceIdeal.Stages

end
-- ==== Proof.lean ====
/-
  The certificate: the Pallas bilinear table lookup equals its jnp reference over the extended reals.

  For each of 16,777,216 queries (r, z) both programs find the cell (i, j) of a 2048 × 512 table that holds the query
  and its offsets (wx, wy) in the cell, by the same operations.  The reference reads the cell's four corners by
  gathers and combines them, (1 − wx)(1 − wy)·T[i, j] + wx(1 − wy)·T[i+1, j] + (1 − wx)·wy·T[i, j+1] + wx·wy·T[i+1, j+1].
  The kernel never indexes the table: per block of 512 queries it multiplies a 512 × 2048 matrix of row weights
  (1 − wx at column i, wx at column i + 1, zero elsewhere) by the table on the matrix unit, multiplies the product
  entry by entry with a 512 × 512 matrix of column weights of the same make, and sums along the lanes.  A sum against
  a two-entry weight row keeps two terms, and the two arrangements then differ by distributing a product over a sum
  of two terms — true where every factor is a real number, which is what the precondition (finite inputs) gives.
  The kernel's bf16 casts of the weights and of the table are the identity at the ideal values.

  The modules: Bilinear (the two arrangements and their agreement), LibColumn and LibPointGather (column vectors,
  two-entry weight matrices and lane sums read at an index; a gather of single matrix entries read at an index),
  KernelPoint (the kernel body at one lane), KernelArray (its blocks tile the result array; the kernel's run),
  RefRun (the reference's run, stage by stage), RefPoint (the reference at one query), Finite (the precondition read).  Here: the three frames, and the two runs
  set side by side.
-/
import proofs.«418214_j25331717111922_3_alg».proof.Defs
import proofs.«418214_j25331717111922_3_alg».proof.Proof.Gen.Kernel
import proofs.«418214_j25331717111922_3_alg».proof.Proof.Gen.Kernel.Skeleton
import proofs.«418214_j25331717111922_3_alg».proof.Proof.Gen.Kernel.Launch
import proofs.«418214_j25331717111922_3_alg».proof.Proof.Gen.Kernel.Points
import proofs.«418214_j25331717111922_3_alg».proof.Proof.Gen.Kernel.Frame
import proofs.«418214_j25331717111922_3_alg».proof.Proof.Gen.KernelIdeal
import proofs.«418214_j25331717111922_3_alg».proof.Proof.Gen.KernelIdeal.Skeleton
import proofs.«418214_j25331717111922_3_alg».proof.Proof.Gen.KernelIdeal.Launch
import proofs.«418214_j25331717111922_3_alg».proof.Proof.Gen.KernelIdeal.Points
import proofs.«418214_j25331717111922_3_alg».proof.Proof.Gen.KernelIdeal.Frame
import proofs.«418214_j25331717111922_3_alg».proof.Proof.Gen.ReferenceIdeal
import proofs.«418214_j25331717111922_3_alg».proof.Proof.Gen.Pre_finite_inputs
import proofs.«418214_j25331717111922_3_alg».proof.Proof.Gen.KernelIdeal.Value
import proofs.«418214_j25331717111922_3_alg».proof.Proof.Bilinear
import proofs.«418214_j25331717111922_3_alg».proof.Proof.Finite
import proofs.«418214_j25331717111922_3_alg».proof.Proof.KernelArray
import proofs.«418214_j25331717111922_3_alg».proof.Proof.RefPoint
import proofs.«418214_j25331717111922_3_alg».proof.Proof.RefRun
import Idealize.ShloMosaic.Adequacy
import Idealize.ShloMosaic.Init

noncomputable section

namespace Cert.Proof

open Idealize.ShloMosaic Idealize.ShloMosaic.ValueIdx Idealize.SL.Sem Cert.Bilinear

/-- The word-level kernel runs and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result forgotten. -/
theorem frame_reference : Cert.frame_ReferenceIdeal := fun m ρ _ =>
  (θ_run Cert.ReferenceIdeal.defs _ _).mono (fun _ h c => (h c).2) (Cert.ReferenceIdeal.Stages.run (F := Ideal) m ρ)

/-- The ideal pass rewrote nothing in this kernel. -/
theorem preserves : Cert.preserves_Kernel_KernelIdeal := trivial

/-- Both runs end with the interpolant at every query: the kernel's array in the weight-row arrangement, the
    reference's in the four-corner one, equal where the coordinates and the table are real numbers. -/
theorem algebraic : Cert.algebraic_KernelIdeal_ReferenceIdeal := by
  intro m ρ m' ρ' hpre hagree
  refine ⟨fun c => Cert.KernelIdeal.Array.lookup
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1]
  obtain ⟨hr, hz, hT⟩ := Cert.Finite.reals_of_pre _ _ _ _ _ (hpre c)
  funext i
  obtain ⟨n, rfl⟩ : ∃ n : Fin 16777216, i = ix1 n := ⟨i 0, eq_ix1 i⟩
  rw [Cert.ReferenceIdeal.Point.reference_apply]
  obtain ⟨x, hx⟩ := hr (ix1 n)
  obtain ⟨y, hy⟩ := hz (ix1 n)
  show interp _ (coord _) (coord _) = viaWeights _ (coord _) (coord _)
  rw [hx, hy, coord_coe, coord_coe]
  exact (viaWeights_eq_interp _ hT x y).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
